-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x16x16x64 : Shape := ⟨5, ![4, 16, 16, 16, 64]⟩
abbrev S_ : Shape := ⟨0, ![]⟩

class Facts : Prop where
  bcast_S_S4x16x16x16x64 : S_.BroadcastsInDim S4x16x16x16x64 (![] : Fin 0 → Fin S4x16x16x16x64.rank)
  reducesTo_S4x16x16x16x64_S_d0_1_2_3_4 : S4x16x16x16x64.ReducesTo [0, 1, 2, 3, 4] S_
  h_S_ : 0 < S_.numel

variable [Facts]

def fn {F : FTy → Type} [FloatOps F] (main_arg0 : FVec F S4x16x16x16x64 .f32) : IVec S_ 1 :=
  let main_v0 : FVec F S4x16x16x16x64 .f32 := Host.absf main_arg0
  let main_cst : FVec F S_ .f32 := constant S_ .f32 0x7F800000#32
  let main_v1 : FVec F S4x16x16x16x64 .f32 := broadcastInDim S4x16x16x16x64 ![] bcast_S_S4x16x16x16x64 main_cst
  let main_v2 : IVec S4x16x16x16x64 1 := cmpf .olt main_v0 main_v1
  let main_c : IVec S_ 1 := constantI S_ 1 1#1
  let main_v3 : IVec S_ 1 := (fun x v => Host.reduce IntOp.andi x v reducesTo_S4x16x16x16x64_S_d0_1_2_3_4 h_S_) main_v2 main_c
  main_v3
-- ==== Kernel.lean ====
abbrev S4x16x16x16x64 : Shape := ⟨5, ![4, 16, 16, 16, 64]⟩
abbrev S4x4096x64 : Shape := ⟨3, ![4, 4096, 64]⟩
abbrev S1x1024x64 : Shape := ⟨3, ![1, 1024, 64]⟩
abbrev S1x4096x64 : Shape := ⟨3, ![1, 4096, 64]⟩
abbrev S1x1024x192 : Shape := ⟨3, ![1, 1024, 192]⟩
abbrev S1x4096x192 : Shape := ⟨3, ![1, 4096, 192]⟩
abbrev S1x1024x4096 : Shape := ⟨3, ![1, 1024, 4096]⟩
abbrev S1x1024 : Shape := ⟨2, ![1, 1024]⟩
abbrev S1x1024x1 : Shape := ⟨3, ![1, 1024, 1]⟩
abbrev S1x4096x128 : Shape := ⟨3, ![1, 4096, 128]⟩
abbrev S1x1024x128 : Shape := ⟨3, ![1, 1024, 128]⟩

abbrev nBuf : Space → Nat
  | .hbm => 8
  | .vmem => 10
  | .smem => 0
  | _ => 0

abbrev bufTy : (tb : Table) → Fin (tcTables nBuf tb) → BufTy
  | .hbm, ⟨0, _⟩ => ⟨S4x16x16x16x64, .f32⟩
  | .hbm, ⟨1, _⟩ => ⟨S4x4096x64, .f32⟩
  | .hbm, ⟨2, _⟩ => ⟨S4x4096x64, .bf16⟩
  | .hbm, ⟨3, _⟩ => ⟨S4x4096x64, .f32⟩
  | .hbm, ⟨4, _⟩ => ⟨S4x4096x64, .f32⟩
  | .hbm, ⟨5, _⟩ => ⟨S4x4096x64, .bf16⟩
  | .hbm, ⟨6, _⟩ => ⟨S4x4096x64, .f32⟩
  | .hbm, ⟨7, _⟩ => ⟨S4x16x16x16x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x4096x64, .bf16⟩
  | .local _ .vmem, ⟨5, _⟩ => ⟨S1x4096x64, .bf16⟩
  | .local _ .vmem, ⟨6, _⟩ => ⟨S1x4096x64, .bf16⟩
  | .local _ .vmem, ⟨7, _⟩ => ⟨S1x4096x64, .bf16⟩
  | .local _ .vmem, ⟨8, _⟩ => ⟨S1x1024x64, .f32⟩
  | .local _ .vmem, ⟨9, _⟩ => ⟨S1x1024x64, .f32⟩
  | _, _ => ⟨S4x16x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x16x16x64_S4x4096x64 : S4x16x16x16x64.ShapeCasts S4x4096x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1x1024x64 : S1x1024x64.ShapeCasts S1x1024x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S1x4096x64 : S1x4096x64.ShapeCasts S1x4096x64
  concatenates_S1x1024x64_S1x1024x64_S1x1024x64_S1x1024x192_d2 : Shape.Concatenates [S1x1024x64, S1x1024x64, S1x1024x64] S1x1024x192 2
  concatenates_S1x4096x64_S1x4096x64_S1x4096x64_S1x4096x192_d2 : Shape.Concatenates [S1x4096x64, S1x4096x64, S1x4096x64] S1x4096x192 2
  reduces_S1x1024x4096_S1x1024 : S1x1024x4096.Reduces [2] S1x1024
  shapeCasts_S1x1024_S1x1024x1 : S1x1024.ShapeCasts S1x1024x1
  broadcasts_S1x1024x1_S1x1024x4096 : S1x1024x1.Broadcasts S1x1024x4096
  concatenates_S1x4096x64_S1x4096x64_S1x4096x128_d2 : Shape.Concatenates [S1x4096x64, S1x4096x64] S1x4096x128 2
  slices_S1x1024x128_o0_0_0_S1x1024x64 : S1x1024x128.Slices ![0, 0, 0] S1x1024x64
  slices_S1x1024x128_o0_0_64_S1x1024x64 : S1x1024x128.Slices ![0, 0, 64] S1x1024x64
  broadcasts_S1x1024x1_S1x1024x64 : S1x1024x1.Broadcasts S1x1024x64
  shapeCasts_S4x4096x64_S4x16x16x16x64 : S4x4096x64.ShapeCasts S4x16x16x16x64
  dot_S1x1024x192_S1x4096x192_S1x1024x4096_2_2_1_1_0_0_wf : DotDims.WF S1x1024x192 S1x4096x192 S1x1024x4096 [2] [2] [1] [1] [0] [0]
  dot_S1x1024x4096_S1x4096x128_S1x1024x128_2_1_1_2_0_0_wf : DotDims.WF S1x1024x4096 S1x4096x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .bf16 = 32 ∨ (Rect.block (s := S4x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x4096x64.size a
  hwx0_1 : ∀ i : grid0.Coords, EltTy.bits .bf16 = 32 ∨ (Rect.block (s := S4x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .bf16 = 32 ∨ (Rect.block (s := S4x4096x64) S1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x64.size a ≤ S4x4096x64.size a
  hwx0_3 : ∀ i : grid0.Coords, EltTy.bits .bf16 = 32 ∨ (Rect.block (s := S4x4096x64) S1x4096x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .f32 = 32 ∨ (Rect.block (s := S4x4096x64) S1x1024x64.size (cc0_transform_4 i) (hinb0_4 i)).WholeWords (EltTy.packing .f32)

variable [Facts₀]

def dot_S1x1024x192_S1x4096x192_S1x1024x4096_2_2_1_1_0_0 : DotDims S1x1024x192 S1x4096x192 S1x1024x4096 where
  lhsContracting := [2]
  rhsContracting := [2]
  lhsNonContracting := [1]
  rhsNonContracting := [1]
  lhsBatch := [0]
  rhsBatch := [0]
  wf := dot_S1x1024x192_S1x4096x192_S1x1024x4096_2_2_1_1_0_0_wf
def dot_S1x1024x4096_S1x4096x128_S1x1024x128_2_1_1_2_0_0 : DotDims S1x1024x4096 S1x4096x128 S1x1024x128 where
  lhsContracting := [2]
  rhsContracting := [1]
  lhsNonContracting := [1]
  rhsNonContracting := [2]
  lhsBatch := [0]
  rhsBatch := [0]
  wf := dot_S1x1024x4096_S1x4096x128_S1x1024x128_2_1_1_2_0_0_wf

abbrev win0_0 : Pipeline.Window sig grid0 :=
  Pipeline.Window.ofSpec (Memref.whole main_v1) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x16x16x64 : Shape := ⟨5, ![4, 16, 16, 16, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x16x16x16x64, .f32⟩
  | .hbm, ⟨1, _⟩ => ⟨S4x4096x64, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S4x4096x64, .f32⟩
  | .hbm, ⟨18, _⟩ => ⟨S4x16x16x16x64, .f32⟩
  | _, _ => ⟨S4x16x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  shapeCasts_S4x16x16x16x64_S4x4096x64 : S4x16x16x16x64.ShapeCasts S4x4096x64
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x4096x64_S4x16x16x16x64 : S4x4096x64.ShapeCasts S4x16x16x16x64
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.BBody.lean ====
/-
  The attention kernel's body at one grid point, and the pipeline's proof data.

  The region is entered after the five host operations that split the tokens into head and remainder. At grid point
  `t` the body reads four staged blocks — the query tile of the heads, the query tile of the remainders, the whole
  batch of heads, the whole batch of remainders — and overwrites the staged output tile with one value, the
  kernel's payload of the four blocks; it changes no input block. The heads' array is behind two windows (the query
  tile and the batch), and so is the remainders' array: each of the two windows on one array holds it at one half
  of its share, the output array is held outright.
-/
import proofs.«413013_j73598559584966_3_alg».proof.Proof.Gen.Kernel.Launch
import proofs.«413013_j73598559584966_3_alg».proof.Proof.Gen.Kernel.Skeleton
import proofs.«413013_j73598559584966_3_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as the host operations' valuation; -/
abbrev V₀ (c : Dev nD) : Valuation τ sig (Elt F) := fun b => m (c, b)
/-- and when the region is entered: the five host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: where the window is not
    fetched its block index has not moved since the point before. One statement per input window. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile -/

abbrev rq : Rect S1x1024x64 := Rect.unit (s := S1x1024x64) ![0, 0, 0] S1x1024x64.size inb_S1x1024x64_S1x1024x64_0_0_0
abbrev rk : Rect S1x4096x64 := Rect.unit (s := S1x4096x64) ![0, 0, 0] S1x4096x64.size inb_S1x4096x64_S1x4096x64_0_0_0

/-- The output tile after the body, from the four input blocks: its one store as a piece. -/
def outTile (x0 x1 : Vec F S1x1024x64 .bf16) (x2 x3 : Vec F S1x4096x64 .bf16) : Vec F S1x1024x64 .f32 :=
  View.canon [⟨rq, k0_pay1 (View.ld x0 rq) (View.ld x1 rq) (View.ld x2 rk) (View.ld x3 rk)⟩]

/-- The one store covers the tile. -/
theorem cover_out (p0 : Vec F S1x1024x64 .f32) (y : S1x1024x64.Idx) :
    ∃ pc ∈ ([⟨rq, p0⟩] : List (View.Piece (Elt F) S1x1024x64 .f32)), y ∈ pc.1.set :=
  View.cover_of_tiled [⟨rq, p0⟩] S1x1024x64.size (by rfl) y

/-! ## The body's triple -/

set_option maxHeartbeats 1000000 in
/-- The body on whole staging memrefs, the four inputs' at read contents and the output's at anything, runs to the
    continuation holding the inputs' as they were and the output's at `outTile` of the inputs'. -/
theorem sound_kernel (c : Dev nD) (E : Set ℕ) (i : grid0.Coords)
    (arg2 : Memref sig .tc .vmem S1x1024x64 .bf16) (harg2 : arg2.IsWhole) (arg3 : Memref sig .tc .vmem S1x1024x64 .bf16) (harg3 : arg3.IsWhole)
    (arg4 : Memref sig .tc .vmem S1x4096x64 .bf16) (harg4 : arg4.IsWhole) (arg5 : Memref sig .tc .vmem S1x4096x64 .bf16) (harg5 : arg5.IsWhole)
    (arg6 : Memref sig .tc .vmem S1x1024x64 .f32) (harg6 : arg6.IsWhole)
    (x0 x1 : Vec F S1x1024x64 .bf16) (x2 x3 : Vec F S1x4096x64 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outTile x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer
    at its block and the output's at `outTile` of the four input blocks; the invariant the scoped buffers the pipeline
    does not stage; nothing owed; each of the two windows on the heads' array, and on the remainders', at one half of
    the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outTile (iblk m c 0 t) (iblk m c 1 t) (iblk m c 2 t) (iblk m c 3 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BRun.lean ====
/-
  The run of the attention program: five host operations, the kernel region, the closing reshape.

  Between the parts core `c` holds its unscoped buffers at known contents. The region is entered from all of them at
  what the five host operations left; the heads' array and the remainders' array are each behind two input windows, so
  each is split into two half shares, one per window, and the output array goes to the pipeline outright; the argument
  and the result's buffer pass the region by. At the region's end the output array holds what the write-backs of the
  sixteen points left; the closing reshape reads it and writes the result, and the argument is as launched.
-/
import proofs.«413013_j73598559584966_3_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every part: the core owing nothing. -/
abbrev Rw (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The output array after the region, and the buffers the closing reshape runs over -/

/-- The output array after the write-backs of all sixteen points. -/
abbrev finalOut (c : Dev nD) : Buf (Elt F) ((c : Thread nD τ).loc main_v5) := (dats m 0 c).arrAt 4 cfg0.N

/-- Core `c`'s buffers after the region: as the five host operations left them, the output array at `finalOut`. -/
abbrev V₂ (c : Dev nD) : Valuation τ sig (Elt F) := Function.update (StableHlo.after hostOps0 (V₀ m c)) main_v5 (finalOut m c)

/-- The two buffers the closing reshape touches. -/
abbrev tailRefs : Finset (DevRef τ sig) := {Proc.devRef .tc main_v5, Proc.devRef .tc main_v6}

/-! ## Entering the region: the arrays dealt to the windows -/

/-- The share each window holds its array at: a half for each of the two windows on the heads' array and on the
    remainders', all of it for the output. -/
theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl

/-- The distinct buffers behind the five windows' arrays are three: the heads', the remainders', the output's. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v4) ↦{fullShare} W main_v4)
          ∗ (((c : Thread nD τ).loc main_v5) ↦{fullShare} W main_v5)) :=
  bigSep_eq_bigSepL_of_eq [main_v1, main_v4, main_v5] (by decide) (by decide) _

/-- The buffers behind the windows' arrays, each whole at the full share at the region-entry contents, make the
    pipeline's arrays at entry: the heads' array split into a half share for the query window and one for the
    key/value window, the remainders' array likewise, the output array whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(Memref.isWhole_whole main_v1).set_eq_univ, (Memref.isWhole_whole main_v4).set_eq_univ, (Memref.isWhole_whole main_v5).set_eq_univ]
  rw [share_0, share_1, share_2, share_3, share_4]
  iintro ⟨H1, H4, H5⟩
  ihave H1' := (pointsTo_share (PosShare.mem_left_op_right fullShare)).1 $$ H1
  ihave H4' := (pointsTo_share (PosShare.mem_left_op_right fullShare)).1 $$ H4
  icases H1' with ⟨H1l, H1r⟩
  icases H4' with ⟨H4l, H4r⟩
  isplitl [H1l]; · iexact H1l
  isplitl [H4l]; · iexact H4l
  isplitl [H1r]; · iexact H1r
  isplitl [H4r]; · iexact H4r
  iexact H5

/-! ## The segments -/

/-- The five host operations over all the unscoped buffers, from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) Rw

/-- The closing reshape over the output array and the result's buffer, the argument riding along. -/
def seg1 : HostSeg (Ix := Unit) (Name := ℕ) (U := UR sig nD τ) (Lvl := ℕ) (pcfgs (F := F)) defs₀ Variants.none L lv :=
  HostSeg.ofOps _ _ _ _ _ tailRefs hostOps1
    (by intro op h; simp only [List.mem_cons, List.mem_nil_iff, or_false] at h; subst h; exact subset_of_eq (StableHlo.reshape_bufs ..))
    (fun op h => (List.forall_iff_forall_mem.mp hostOps1_fresh) op h) (V₂ m)
    (fun c => iprop((((c : Thread nD τ).loc main_arg0) ↦{fullShare} V m c main_arg0) ∗ Rw c))

/-! ## The region -/

theorem V₂_out (c : Dev nD) : V₂ m c (Proc.devRef .tc main_v5) = finalOut m c := by
  unfold V₂; exact Function.update_self ..
theorem V₂_res (c : Dev nD) : V₂ m c (Proc.devRef .tc main_v6) = V m c main_v6 := by
  unfold V₂; exact Function.update_of_ne (StableHlo.devRef_ne_of_ne (by decide)) ..

/-- The output array and the result's buffer, each whole, are the two buffers the closing reshape runs over. -/
theorem held_tail (c : Dev nD) :
    iprop((((c : Thread nD τ).loc main_v5) ↦{fullShare} finalOut m c) ∗ (((c : Thread nD τ).loc main_v6) ↦{fullShare} V m c main_v6))
      ⊢ (StableHlo.held (c : Thread nD τ) tailRefs (V₂ m c) : sProp 𝕄) := by
  unfold StableHlo.held tailRefs
  rw [BI.bigSep_insert (by rw [Finset.mem_singleton]; exact StableHlo.devRef_ne_of_ne (by decide)), BI.bigSep_singleton, V₂_out, V₂_res]
  exact .rfl

set_option backward.isDefEq.respectTransparency.types false in
/-- The region: entered from all the unscoped buffers at what the five host operations left — the windows' arrays
    into the pipeline (the shared ones split), the argument and the result's buffer passing by —, left with the
    output array at its final contents beside the result's buffer, the argument riding along. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ Rw c)
  post c := iprop(StableHlo.held (c : Thread nD τ) tailRefs (V₂ m c) ∗ (((c : Thread nD τ).loc main_arg0) ↦{fullShare} V m c main_arg0) ∗ Rw c)
  X _ := iprop(emp)
  Y _ := iprop(emp)
  Z c := iprop((((c : Thread nD τ).loc main_arg0) ↦{fullShare} V m c main_arg0) ∗ (((c : Thread nD τ).loc main_v6) ↦{fullShare} V m c main_v6))
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), unscopedRest0_eq c (V m c)]
    iintro ⟨⟨⟨Ha, H0, -, -, -, H6⟩, HO⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact H6
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Dat.arrays
    rw [bigSep_W0, (Memref.isWhole_whole main_v5).set_eq_univ, share_4]
    iintro ⟨⟨-, -, -, -, H4⟩, HO, -, H0, H6⟩
    imodintro
    isplitl [H4 H6]
    · iapply (held_tail m c)
      isplitl [H4]; · iexact H4
      iexact H6
    isplitl [H0]; · iexact H0
    unfold Pipeline.Dat.owesAt Pipeline.owesWithin
    icases HO with ⟨%W, -, HO⟩; iexists W; iexact HO

/-! ## The launch -/

/-- @main as the list of the three parts. -/
abbrev segs : List (Seg (pcfgs (F := F)) adm (dats m) () defs₀ Variants.none L lv) := [.host (seg0 m), .region (reg0 m), .host (seg1 m)]

/-- What the core holds at the end: the closing reshape's two buffers after it, and the argument. -/
abbrev Tₙ (c : Dev nD) : sProp 𝕄 :=
  iprop(StableHlo.held (c : Thread nD τ) tailRefs (StableHlo.after hostOps1 (V₂ m c)) ∗ (((c : Thread nD τ).loc main_arg0) ↦{fullShare} V m c main_arg0))

/-- The final memory: the result's buffer at what the closing reshape makes of the output array, the argument at what
    the five host operations left in it. -/
def QC : PUnit × MemSt nD τ sig (Elt F) → Prop := fun r =>
  ∀ c : Dev nD, r.2.mem ((c : Thread nD τ).loc main_v6) = StableHlo.after hostOps1 (V₂ m c) (Proc.devRef .tc main_v6)
    ∧ r.2.mem ((c : Thread nD τ).loc main_arg0) = V m c main_arg0

set_option backward.isDefEq.respectTransparency.types false in
/-- From any memory with zero counters every weakly fair execution of @main terminates, nothing faulting, and every
    final memory is as `QC` says. -/
theorem run_main : θ_run defs (onTc (τ := τ) (main (F := F))) ⟨m, fun _ => 0, ρ⟩ (QC m) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rw c)) (Tₙ := Tₙ m)
    (hch := ⟨fun _ => .rfl, fun _ => .rfl, fun _ => .rfl, fun c => by
        show iprop(StableHlo.held (c : Thread nD τ) tailRefs (StableHlo.after hostOps1 (V₂ m c))
            ∗ (((c : Thread nD τ).loc main_arg0) ↦{fullShare} V m c main_arg0) ∗ Rw c) ⊢ _
        iintro ⟨Hh, H0, HO⟩
        isplitr [HO]
        · isplitl [Hh]; · iexact Hh
          iexact H0
        iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v6) = StableHlo.after hostOps1 (V₂ m c) (Proc.devRef .tc main_v6)
      ∧ s.mem ((c : Thread nD τ).loc main_arg0) = V m c main_arg0)
    (hfin := fun c s' => by
      dsimp only [Tₙ]
      unfold StableHlo.held
      iintro ⟨⟨Hh, H0⟩, HSI⟩
      icombine HSI H0 gives %h0
      ihave Hr := (pointsTo_read_all tailRefs (fun b => ((c : Thread nD τ).1, b)) (StableHlo.after hostOps1 (V₂ m c)) s') $$ [Hh HSI]
      · isplitl [Hh] <;> iassumption
      icases Hr with ⟨%h, HSI⟩
      imodintro
      isplitr
      · ipureintro
        exact ⟨h (Proc.devRef .tc main_v6) (by simp [tailRefs]), Buf.eq_of_forall_mem_univ h0⟩
      iexact HSI)
    (hQ := fun _ h => h)

/-! ## The frame -/

/-- No host operation before the region writes the argument. -/
theorem arg_kept (c : Dev nD) : V m c main_arg0 = m ((c.tc : Thread nD τ).loc main_arg0) := by
  show StableHlo.after hostOps0 (V₀ m c) (Proc.devRef .tc main_arg0) = _
  after_results <;> rfl

/-- The frame: every weakly fair execution of @main terminates, nothing faulting, and the argument ends as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => ((h c).2).trans (arg_kept m c)) (run_main m ρ)

end Cert.Kernel.Hand

end
-- ==== Proof.KBody.lean ====
/-
  The attention kernel's body at one grid point, and the pipeline's proof data.

  The region is entered after the five host operations that split the tokens into head and remainder. At grid point
  `t` the body reads four staged blocks — the query tile of the heads, the query tile of the remainders, the whole
  batch of heads, the whole batch of remainders — and overwrites the staged output tile with one value, the
  kernel's payload of the four blocks; it changes no input block. The heads' array is behind two windows (the query
  tile and the batch), and so is the remainders' array: each of the two windows on one array holds it at one half
  of its share, the output array is held outright.
-/
import proofs.«413013_j73598559584966_3_alg».proof.Proof.Gen.KernelIdeal.Launch
import proofs.«413013_j73598559584966_3_alg».proof.Proof.Gen.KernelIdeal.Skeleton
import proofs.«413013_j73598559584966_3_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered -/

/-- Core `c`'s buffers at launch, as the host operations' valuation; -/
abbrev V₀ (c : Dev nD) : Valuation τ sig (Elt F) := fun b => m (c, b)
/-- and when the region is entered: the five host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: where the window is not
    fetched its block index has not moved since the point before. One statement per input window. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile -/

abbrev rq : Rect S1x1024x64 := Rect.unit (s := S1x1024x64) ![0, 0, 0] S1x1024x64.size inb_S1x1024x64_S1x1024x64_0_0_0
abbrev rk : Rect S1x4096x64 := Rect.unit (s := S1x4096x64) ![0, 0, 0] S1x4096x64.size inb_S1x4096x64_S1x4096x64_0_0_0

/-- The output tile after the body, from the four input blocks: its one store as a piece. -/
def outTile (x0 x1 : Vec F S1x1024x64 .bf16) (x2 x3 : Vec F S1x4096x64 .bf16) : Vec F S1x1024x64 .f32 :=
  View.canon [⟨rq, k0_pay1 (View.ld x0 rq) (View.ld x1 rq) (View.ld x2 rk) (View.ld x3 rk)⟩]

/-- The one store covers the tile. -/
theorem cover_out (p0 : Vec F S1x1024x64 .f32) (y : S1x1024x64.Idx) :
    ∃ pc ∈ ([⟨rq, p0⟩] : List (View.Piece (Elt F) S1x1024x64 .f32)), y ∈ pc.1.set :=
  View.cover_of_tiled [⟨rq, p0⟩] S1x1024x64.size (by rfl) y

/-! ## The body's triple -/

set_option maxHeartbeats 1000000 in
/-- The body on whole staging memrefs, the four inputs' at read contents and the output's at anything, runs to the
    continuation holding the inputs' as they were and the output's at `outTile` of the inputs'. -/
theorem sound_kernel (c : Dev nD) (E : Set ℕ) (i : grid0.Coords)
    (arg2 : Memref sig .tc .vmem S1x1024x64 .bf16) (harg2 : arg2.IsWhole) (arg3 : Memref sig .tc .vmem S1x1024x64 .bf16) (harg3 : arg3.IsWhole)
    (arg4 : Memref sig .tc .vmem S1x4096x64 .bf16) (harg4 : arg4.IsWhole) (arg5 : Memref sig .tc .vmem S1x4096x64 .bf16) (harg5 : arg5.IsWhole)
    (arg6 : Memref sig .tc .vmem S1x1024x64 .f32) (harg6 : arg6.IsWhole)
    (x0 x1 : Vec F S1x1024x64 .bf16) (x2 x3 : Vec F S1x4096x64 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outTile x0 x1 x2 x3)) -∗ K ⟨⟩))
      ⊢ wp frame (wpE (defs₀ (F := F)) Variants.none c none) E (cc0__attn_kernel i arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`: the arrays as the region finds them; after the body at point `t` each input's buffer
    at its block and the output's at `outTile` of the four input blocks; the invariant the scoped buffers the pipeline
    does not stage; nothing owed; each of the two windows on the heads' array, and on the remainders', at one half of
    the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outTile (iblk m c 0 t) (iblk m c 1 t) (iblk m c 2 t) (iblk m c 3 t) := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The run of the attention program: five host operations, the kernel region, the closing reshape.

  Between the parts core `c` holds its unscoped buffers at known contents. The region is entered from all of them at
  what the five host operations left; the heads' array and the remainders' array are each behind two input windows, so
  each is split into two half shares, one per window, and the output array goes to the pipeline outright; the argument
  and the result's buffer pass the region by. At the region's end the output array holds what the write-backs of the
  sixteen points left; the closing reshape reads it and writes the result, and the argument is as launched.
-/
import proofs.«413013_j73598559584966_3_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every part: the core owing nothing. -/
abbrev Rw (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The output array after the region, and the buffers the closing reshape runs over -/

/-- The output array after the write-backs of all sixteen points. -/
abbrev finalOut (c : Dev nD) : Buf (Elt F) ((c : Thread nD τ).loc main_v5) := (dats m 0 c).arrAt 4 cfg0.N

/-- Core `c`'s buffers after the region: as the five host operations left them, the output array at `finalOut`. -/
abbrev V₂ (c : Dev nD) : Valuation τ sig (Elt F) := Function.update (StableHlo.after hostOps0 (V₀ m c)) main_v5 (finalOut m c)

/-- The two buffers the closing reshape touches. -/
abbrev tailRefs : Finset (DevRef τ sig) := {Proc.devRef .tc main_v5, Proc.devRef .tc main_v6}

/-! ## Entering the region: the arrays dealt to the windows -/

/-- The share each window holds its array at: a half for each of the two windows on the heads' array and on the
    remainders', all of it for the output. -/
theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl

/-- The distinct buffers behind the five windows' arrays are three: the heads', the remainders', the output's. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v4) ↦{fullShare} W main_v4)
          ∗ (((c : Thread nD τ).loc main_v5) ↦{fullShare} W main_v5)) :=
  bigSep_eq_bigSepL_of_eq [main_v1, main_v4, main_v5] (by decide) (by decide) _

/-- The buffers behind the windows' arrays, each whole at the full share at the region-entry contents, make the
    pipeline's arrays at entry: the heads' array split into a half share for the query window and one for the
    key/value window, the remainders' array likewise, the output array whole. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(Memref.isWhole_whole main_v1).set_eq_univ, (Memref.isWhole_whole main_v4).set_eq_univ, (Memref.isWhole_whole main_v5).set_eq_univ]
  rw [share_0, share_1, share_2, share_3, share_4]
  iintro ⟨H1, H4, H5⟩
  ihave H1' := (pointsTo_share (PosShare.mem_left_op_right fullShare)).1 $$ H1
  ihave H4' := (pointsTo_share (PosShare.mem_left_op_right fullShare)).1 $$ H4
  icases H1' with ⟨H1l, H1r⟩
  icases H4' with ⟨H4l, H4r⟩
  isplitl [H1l]; · iexact H1l
  isplitl [H4l]; · iexact H4l
  isplitl [H1r]; · iexact H1r
  isplitl [H4r]; · iexact H4r
  iexact H5

/-! ## The segments -/

/-- The five host operations over all the unscoped buffers, from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) Rw

/-- The closing reshape over the output array and the result's buffer, the argument riding along. -/
def seg1 : HostSeg (Ix := Unit) (Name := ℕ) (U := UR sig nD τ) (Lvl := ℕ) (pcfgs (F := F)) defs₀ Variants.none L lv :=
  HostSeg.ofOps _ _ _ _ _ tailRefs hostOps1
    (by intro op h; simp only [List.mem_cons, List.mem_nil_iff, or_false] at h; subst h; exact subset_of_eq (StableHlo.reshape_bufs ..))
    (fun op h => (List.forall_iff_forall_mem.mp hostOps1_fresh) op h) (V₂ m)
    (fun c => iprop((((c : Thread nD τ).loc main_arg0) ↦{fullShare} V m c main_arg0) ∗ Rw c))

/-! ## The region -/

theorem V₂_out (c : Dev nD) : V₂ m c (Proc.devRef .tc main_v5) = finalOut m c := by
  unfold V₂; exact Function.update_self ..
theorem V₂_res (c : Dev nD) : V₂ m c (Proc.devRef .tc main_v6) = V m c main_v6 := by
  unfold V₂; exact Function.update_of_ne (StableHlo.devRef_ne_of_ne (by decide)) ..

/-- The output array and the result's buffer, each whole, are the two buffers the closing reshape runs over. -/
theorem held_tail (c : Dev nD) :
    iprop((((c : Thread nD τ).loc main_v5) ↦{fullShare} finalOut m c) ∗ (((c : Thread nD τ).loc main_v6) ↦{fullShare} V m c main_v6))
      ⊢ (StableHlo.held (c : Thread nD τ) tailRefs (V₂ m c) : sProp 𝕄) := by
  unfold StableHlo.held tailRefs
  rw [BI.bigSep_insert (by rw [Finset.mem_singleton]; exact StableHlo.devRef_ne_of_ne (by decide)), BI.bigSep_singleton, V₂_out, V₂_res]
  exact .rfl

set_option backward.isDefEq.respectTransparency.types false in
/-- The region: entered from all the unscoped buffers at what the five host operations left — the windows' arrays
    into the pipeline (the shared ones split), the argument and the result's buffer passing by —, left with the
    output array at its final contents beside the result's buffer, the argument riding along. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ Rw c)
  post c := iprop(StableHlo.held (c : Thread nD τ) tailRefs (V₂ m c) ∗ (((c : Thread nD τ).loc main_arg0) ↦{fullShare} V m c main_arg0) ∗ Rw c)
  X _ := iprop(emp)
  Y _ := iprop(emp)
  Z c := iprop((((c : Thread nD τ).loc main_arg0) ↦{fullShare} V m c main_arg0) ∗ (((c : Thread nD τ).loc main_v6) ↦{fullShare} V m c main_v6))
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c), unscopedRest0_eq c (V m c)]
    iintro ⟨⟨⟨Ha, H0, -, -, -, H6⟩, HO⟩, -, -⟩
    ihave Ha' := (arrays_entry m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    iexact H6
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    unfold Dat.arrays
    rw [bigSep_W0, (Memref.isWhole_whole main_v5).set_eq_univ, share_4]
    iintro ⟨⟨-, -, -, -, H4⟩, HO, -, H0, H6⟩
    imodintro
    isplitl [H4 H6]
    · iapply (held_tail m c)
      isplitl [H4]; · iexact H4
      iexact H6
    isplitl [H0]; · iexact H0
    unfold Pipeline.Dat.owesAt Pipeline.owesWithin
    icases HO with ⟨%W, -, HO⟩; iexists W; iexact HO

/-! ## The launch -/

/-- @main as the list of the three parts. -/
abbrev segs : List (Seg (pcfgs (F := F)) adm (dats m) () defs₀ Variants.none L lv) := [.host (seg0 m), .region (reg0 m), .host (seg1 m)]

/-- What the core holds at the end: the closing reshape's two buffers after it, and the argument. -/
abbrev Tₙ (c : Dev nD) : sProp 𝕄 :=
  iprop(StableHlo.held (c : Thread nD τ) tailRefs (StableHlo.after hostOps1 (V₂ m c)) ∗ (((c : Thread nD τ).loc main_arg0) ↦{fullShare} V m c main_arg0))

/-- The final memory: the result's buffer at what the closing reshape makes of the output array, the argument at what
    the five host operations left in it. -/
def QC : PUnit × MemSt nD τ sig (Elt F) → Prop := fun r =>
  ∀ c : Dev nD, r.2.mem ((c : Thread nD τ).loc main_v6) = StableHlo.after hostOps1 (V₂ m c) (Proc.devRef .tc main_v6)
    ∧ r.2.mem ((c : Thread nD τ).loc main_arg0) = V m c main_arg0

set_option backward.isDefEq.respectTransparency.types false in
/-- From any memory with zero counters every weakly fair execution of @main terminates, nothing faulting, and every
    final memory is as `QC` says. -/
theorem run_main : θ_run defs (onTc (τ := τ) (main (F := F))) ⟨m, fun _ => 0, ρ⟩ (QC m) :=
  Pipeline.θ_run_regions_kit (pcfgs (F := F)) adm (dats m) () cellOf_inj emb₁ defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Rw c)) (Tₙ := Tₙ m)
    (hch := ⟨fun _ => .rfl, fun _ => .rfl, fun _ => .rfl, fun c => by
        show iprop(StableHlo.held (c : Thread nD τ) tailRefs (StableHlo.after hostOps1 (V₂ m c))
            ∗ (((c : Thread nD τ).loc main_arg0) ↦{fullShare} V m c main_arg0) ∗ Rw c) ⊢ _
        iintro ⟨Hh, H0, HO⟩
        isplitr [HO]
        · isplitl [Hh]; · iexact Hh
          iexact H0
        iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v6) = StableHlo.after hostOps1 (V₂ m c) (Proc.devRef .tc main_v6)
      ∧ s.mem ((c : Thread nD τ).loc main_arg0) = V m c main_arg0)
    (hfin := fun c s' => by
      dsimp only [Tₙ]
      unfold StableHlo.held
      iintro ⟨⟨Hh, H0⟩, HSI⟩
      icombine HSI H0 gives %h0
      ihave Hr := (pointsTo_read_all tailRefs (fun b => ((c : Thread nD τ).1, b)) (StableHlo.after hostOps1 (V₂ m c)) s') $$ [Hh HSI]
      · isplitl [Hh] <;> iassumption
      icases Hr with ⟨%h, HSI⟩
      imodintro
      isplitr
      · ipureintro
        exact ⟨h (Proc.devRef .tc main_v6) (by simp [tailRefs]), Buf.eq_of_forall_mem_univ h0⟩
      iexact HSI)
    (hQ := fun _ h => h)

/-! ## The frame -/

/-- No host operation before the region writes the argument. -/
theorem arg_kept (c : Dev nD) : V m c main_arg0 = m ((c.tc : Thread nD τ).loc main_arg0) := by
  show StableHlo.after hostOps0 (V₀ m c) (Proc.devRef .tc main_arg0) = _
  after_results <;> rfl

/-- The frame: every weakly fair execution of @main terminates, nothing faulting, and the argument ends as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => ((h c).2).trans (arg_kept m c)) (run_main m ρ)

end Cert.KernelIdeal.Hand

end
-- ==== Proof.KValue.lean ====
/-
  From the output tiles to the output array.

  The output window's tile at grid point (b, qi) is rows 1024·qi … 1024·qi + 1023 of batch b, and the sixteen tiles
  tile the [4, 4096, 64] array; the query windows' blocks at that point are the same rows of the heads' and the
  remainders' arrays, and the key/value windows' blocks all of batch b. So after the last point the output array
  holds, at (b, n, ch), the kernel's payload of row-tile n / 1024 and batch b read at row n mod 1024, channel ch.
-/
import proofs.«413013_j73598559584966_3_alg».proof.Proof.KBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- Rows 1024·qi … 1024·qi + 1023 of batch `b` of a [4, 4096, 64] array, as a [1, 1024, 64] block. -/
def qTile (x : Vec F S4x4096x64 .bf16) (b : Fin 4) (qi : Fin 4) : Vec F S1x1024x64 .bf16 := fun y =>
  x (ix3 b (⟨1024 * qi.val + (y 1).val, by have h : (y 1).val < 1024 := (y 1).isLt; have := qi.isLt; omega⟩ : Fin 4096)
    (⟨(y 2).val, (y 2).isLt⟩ : Fin 64))

/-- Batch `b` of a [4, 4096, 64] array, as a [1, 4096, 64] block. -/
def kvBatch (x : Vec F S4x4096x64 .bf16) (b : Fin 4) : Vec F S1x4096x64 .bf16 := fun y =>
  x (ix3 b (⟨(y 1).val, (y 1).isLt⟩ : Fin 4096) (⟨(y 2).val, (y 2).isLt⟩ : Fin 64))

variable (m : (ℓ : Loc nD τ sig) → Buf (Elt F) ℓ)

/-! ## The whole output array as one function of the arrays the region finds -/

/-- What the output array ends holding: at (b, n, ch) the payload of row-tile `n / 1024` of batch `b` of the heads' and
    the remainders' arrays and of all of batch `b` of both, read at row `n % 1024`, channel `ch`. -/
def outArr (q0 q1 : Vec F S4x4096x64 .bf16) : Vec F S4x4096x64 .f32 := fun j =>
  k0_pay1 (qTile q0 ⟨(j 0).val, (j 0).isLt⟩ ⟨(j 1).val / 1024, by have h : (j 1).val < 4096 := (j 1).isLt; omega⟩)
    (qTile q1 ⟨(j 0).val, (j 0).isLt⟩ ⟨(j 1).val / 1024, by have h : (j 1).val < 4096 := (j 1).isLt; omega⟩)
    (kvBatch q0 ⟨(j 0).val, (j 0).isLt⟩) (kvBatch q1 ⟨(j 0).val, (j 0).isLt⟩)
    (ix3 (0 : Fin 1) (⟨(j 1).val % 1024, Nat.mod_lt _ (by decide)⟩ : Fin 1024) (⟨(j 2).val, (j 2).isLt⟩ : Fin 64))

theorem zero3 : (![0, 0, 0] : Fin 3 → Nat) = fun _ => 0 := funext fun a => by fin_cases a <;> rfl

/-- The payload is a function of its four blocks and of the index it is read at. -/
theorem pay_congr {x0 x0' x1 x1' : Vec F S1x1024x64 .bf16} {x2 x2' x3 x3' : Vec F S1x4096x64 .bf16} {y y' : S1x1024x64.Idx}
    (h0 : x0 = x0') (h1 : x1 = x1') (h2 : x2 = x2') (h3 : x3 = x3') (hy : y = y') :
    k0_pay1 x0 x1 x2 x3 y = k0_pay1 x0' x1' x2' x3' y' := by
  subst h0 h1 h2 h3 hy; rfl

/-! ## The block indices over the grid -/

/-- The five index maps in closed form, decided over the sixteen points: point `t` is batch `t / 4`, row-tile `t % 4`;
    the query windows and the output window sit at block (batch, row-tile, 0), the key/value windows at (batch, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## Each input block as rows of its array -/

/-- The heads' query block at point `t`, at `y`, is the heads' array at batch `t / 4`, row `1024 · (t % 4) + y₁`, channel `y₂`. -/
theorem iblk0_apply (c : Dev nD) (t : Fin cfg0.N) (y : S1x1024x64.Idx) (k : S4x4096x64.Idx)
    (h0 : (k 0).val = t.val / 4) (h1 : (k 1).val = 1024 * (t.val % 4) + (y 1).val) (h2 : (k 2).val = (y 2).val) :
    (iblk m c 0 t : Vec F S1x1024x64 .bf16) y = (V m c main_v1 : Vec F S4x4096x64 .bf16) k := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 1024 + 1 * (y 1).val = (k 1).val; omega
  | ⟨2, _⟩ => show win0_0.index t (2 : Fin 3) * 64 + 1 * (y 2).val = (k 2).val; omega

/-- The remainders' query block at point `t`, at `y`, is the remainders' array at batch `t / 4`, row `1024 · (t % 4) + y₁`, channel `y₂`. -/
theorem iblk1_apply (c : Dev nD) (t : Fin cfg0.N) (y : S1x1024x64.Idx) (k : S4x4096x64.Idx)
    (h0 : (k 0).val = t.val / 4) (h1 : (k 1).val = 1024 * (t.val % 4) + (y 1).val) (h2 : (k 2).val = (y 2).val) :
    (iblk m c 1 t : Vec F S1x1024x64 .bf16) y = (V m c main_v4 : Vec F S4x4096x64 .bf16) k := by
  obtain ⟨-, -, -, e0, e1, e2, -⟩ := idx_facts t
  unfold iblk
  rw [View.read_apply]
  show V m c main_v4 _ = V m c main_v4 _
  congr 1
  funext a
  apply Fin.ext
  match a with
  | ⟨0, _⟩ => show win0_1.index t (0 : Fin 3) * 1 + 1 * (y 0).val = (k 0).val; have hy : (y 0).val < 1 := (y 0).isLt; omega
  | ⟨1, _⟩ => show win0_1.index t (1 : Fin 3) * 1024 + 1 * (y 1).val = (k 1).val; omega
  | ⟨2, _⟩ => show win0_1.index t (2 : Fin 3) * 64 + 1 * (y 2).val = (k 2).val; omega

/-- The heads' key/value block at point `t`, at `y`, is the heads' array at batch `t / 4`, row `y₁`, channel `y₂`. -/
theorem iblk2_apply (c : Dev nD) (t : Fin cfg0.N) (y : S1x4096x64.Idx) (k : S4x4096x64.Idx)
    (h0 : (k 0).val = t.val / 4) (h1 : (k 1).val = (y 1).val) (h2 : (k 2).val = (y 2).val) :
    (iblk m c 2 t : Vec F S1x4096x64 .bf16) y = (V m c main_v1 : Vec F S4x4096x64 .bf16) k := by
  obtain ⟨-, -, -, -, -, -, e0, e1, e2, -⟩ := idx_facts t
  unfold iblk
  rw [View.read_apply]
  show V m c main_v1 _ = V m c main_v1 _
  congr 1
  funext a
  apply Fin.ext
  match a with
  | ⟨0, _⟩ => show win0_2.index t (0 : Fin 3) * 1 + 1 * (y 0).val = (k 0).val; have hy : (y 0).val < 1 := (y 0).isLt; omega
  | ⟨1, _⟩ => show win0_2.index t (1 : Fin 3) * 4096 + 1 * (y 1).val = (k 1).val; omega
  | ⟨2, _⟩ => show win0_2.index t (2 : Fin 3) * 64 + 1 * (y 2).val = (k 2).val; omega

/-- The remainders' key/value block at point `t`, at `y`, is the remainders' array at batch `t / 4`, row `y₁`, channel `y₂`. -/
theorem iblk3_apply (c : Dev nD) (t : Fin cfg0.N) (y : S1x4096x64.Idx) (k : S4x4096x64.Idx)
    (h0 : (k 0).val = t.val / 4) (h1 : (k 1).val = (y 1).val) (h2 : (k 2).val = (y 2).val) :
    (iblk m c 3 t : Vec F S1x4096x64 .bf16) y = (V m c main_v4 : Vec F S4x4096x64 .bf16) k := by
  obtain ⟨-, -, -, -, -, -, -, -, -, e0, e1, e2, -⟩ := idx_facts t
  unfold iblk
  rw [View.read_apply]
  show V m c main_v4 _ = V m c main_v4 _
  congr 1
  funext a
  apply Fin.ext
  match a with
  | ⟨0, _⟩ => show win0_3.index t (0 : Fin 3) * 1 + 1 * (y 0).val = (k 0).val; have hy : (y 0).val < 1 := (y 0).isLt; omega
  | ⟨1, _⟩ => show win0_3.index t (1 : Fin 3) * 4096 + 1 * (y 1).val = (k 1).val; omega
  | ⟨2, _⟩ => show win0_3.index t (2 : Fin 3) * 64 + 1 * (y 2).val = (k 2).val; omega

/-- So the query blocks at point `t` are row-tile `t % 4` of batch `t / 4`, -/
theorem iblk0_eq (c : Dev nD) (t : Fin cfg0.N) (b qi : Fin 4) (hb : b.val = t.val / 4) (hq : qi.val = t.val % 4) :
    (iblk m c 0 t : Vec F S1x1024x64 .bf16) = qTile (V m c main_v1) b qi :=
  funext fun y => iblk0_apply m c t y _ hb (by show 1024 * qi.val + (y 1).val = _; rw [hq]) rfl
theorem iblk1_eq (c : Dev nD) (t : Fin cfg0.N) (b qi : Fin 4) (hb : b.val = t.val / 4) (hq : qi.val = t.val % 4) :
    (iblk m c 1 t : Vec F S1x1024x64 .bf16) = qTile (V m c main_v4) b qi :=
  funext fun y => iblk1_apply m c t y _ hb (by show 1024 * qi.val + (y 1).val = _; rw [hq]) rfl
/-- and the key/value blocks all of batch `t / 4`. -/
theorem iblk2_eq (c : Dev nD) (t : Fin cfg0.N) (b : Fin 4) (hb : b.val = t.val / 4) :
    (iblk m c 2 t : Vec F S1x4096x64 .bf16) = kvBatch (V m c main_v1) b :=
  funext fun y => iblk2_apply m c t y _ hb rfl rfl
theorem iblk3_eq (c : Dev nD) (t : Fin cfg0.N) (b : Fin 4) (hb : b.val = t.val / 4) :
    (iblk m c 3 t : Vec F S1x4096x64 .bf16) = kvBatch (V m c main_v4) b :=
  funext fun y => iblk3_apply m c t y _ hb rfl rfl

/-! ## What a point writes back, and the array after the last point -/

/-- Point `t` writes back its block of `outArr`: the tile's element `y` sits in the array at batch `t / 4`, row
    `1024 · (t % 4) + y₁`, channel `y₂`, whose row-tile is `t % 4` and whose row inside the tile is `y₁`. -/
theorem flushed_eq (c : Dev nD) (t : Fin cfg0.N) :
    (dats m 0 c).flushed 4 t = ((cfg0.win 4).blk t).view.read (Elt F) (outArr (V m c main_v1) (V m c main_v4)) := by
  show (cfg0.win 4).cut (grid0.coords t) ((dats m 0 c).after 4 t) = _
  rw [after_4]
  unfold outTile
  rw [View.canon_unit_zero zero3]
  simp only [View.ld_unit_zero (S := S1x1024x64) zero3, View.ld_unit_zero (S := S1x4096x64) zero3]
  obtain ⟨-, -, -, -, -, -, -, -, -, -, -, -, e0, e1, e2⟩ := idx_facts t
  funext y
  show k0_pay1 (iblk m c 0 t) (iblk m c 1 t) (iblk m c 2 t) (iblk m c 3 t) y
    = outArr (V m c main_v1) (V m c main_v4) (((cfg0.win 4).blk t).view.emb y)
  have hy0 : (y 0).val < 1 := (y 0).isLt
  have hy1 : (y 1).val < 1024 := (y 1).isLt
  have k0 : ((((cfg0.win 4).blk t).view.emb y) 0).val = t.val / 4 := by
    show win0_4.index t (0 : Fin 3) * 1 + 1 * (y 0).val = _; omega
  have k1 : ((((cfg0.win 4).blk t).view.emb y) 1).val = 1024 * (t.val % 4) + (y 1).val := by
    show win0_4.index t (1 : Fin 3) * 1024 + 1 * (y 1).val = _; omega
  have k2 : ((((cfg0.win 4).blk t).view.emb y) 2).val = (y 2).val := by
    show win0_4.index t (2 : Fin 3) * 64 + 1 * (y 2).val = _; omega
  unfold outArr
  refine pay_congr (iblk0_eq m c t _ _ k0 ?_) (iblk1_eq m c t _ _ k0 ?_) (iblk2_eq m c t _ k0) (iblk3_eq m c t _ k0) ?_
  · show ((((cfg0.win 4).blk t).view.emb y) 1).val / 1024 = _; rw [k1]; omega
  · show ((((cfg0.win 4).blk t).view.emb y) 1).val / 1024 = _; rw [k1]; omega
  · funext a
    apply Fin.ext
    match a with
    | ⟨0, _⟩ => show (y 0).val = 0; omega
    | ⟨1, _⟩ => show (y 1).val = ((((cfg0.win 4).blk t).view.emb y) 1).val % 1024; rw [k1]; omega
    | ⟨2, _⟩ => show (y 2).val = ((((cfg0.win 4).blk t).view.emb y) 2).val; rw [k2]

/-- An index of the output array is in point `t`'s tile iff each coordinate is in the tile's range on its axis. -/
theorem mem_tile (t : Fin cfg0.N) (i : S4x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v5).slice (win0_4.rect t)).set ↔ _
  rw [View.set_slice_whole, Rect.mem_set_unit]
  exact Iff.rfl

/-- The sixteen tiles cover the array: row `n` of batch `b` is in the tile of point `4 · b + n / 1024`. -/
theorem tiles_cover (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  have hN : cfg0.N = 16 := N_0
  have ht : 4 * (i 0).val + (i 1).val / 1024 < cfg0.N := by rw [hN]; omega
  obtain ⟨-, -, -, -, -, -, -, -, -, -, -, -, e0, e1, e2⟩ := idx_facts ⟨4 * (i 0).val + (i 1).val / 1024, ht⟩
  have e0' : win0_4.index ⟨4 * (i 0).val + (i 1).val / 1024, ht⟩ (0 : Fin 3) = (4 * (i 0).val + (i 1).val / 1024) / 4 := e0
  have e1' : win0_4.index ⟨4 * (i 0).val + (i 1).val / 1024, ht⟩ (1 : Fin 3) = (4 * (i 0).val + (i 1).val / 1024) % 4 := e1
  refine ⟨⟨4 * (i 0).val + (i 1).val / 1024, ht⟩, flush0_4 _, ?_⟩
  rw [mem_tile]
  intro a
  match a with
  | ⟨0, _⟩ =>
    show win0_4.index ⟨4 * (i 0).val + (i 1).val / 1024, ht⟩ (0 : Fin 3) * 1 ≤ (i 0).val
      ∧ (i 0).val < win0_4.index ⟨4 * (i 0).val + (i 1).val / 1024, ht⟩ (0 : Fin 3) * 1 + 1
    omega
  | ⟨1, _⟩ =>
    show win0_4.index ⟨4 * (i 0).val + (i 1).val / 1024, ht⟩ (1 : Fin 3) * 1024 ≤ (i 1).val
      ∧ (i 1).val < win0_4.index ⟨4 * (i 0).val + (i 1).val / 1024, ht⟩ (1 : Fin 3) * 1024 + 1024
    omega
  | ⟨2, _⟩ =>
    show win0_4.index ⟨4 * (i 0).val + (i 1).val / 1024, ht⟩ (2 : Fin 3) * 64 ≤ (i 2).val
      ∧ (i 2).val < win0_4.index ⟨4 * (i 0).val + (i 1).val / 1024, ht⟩ (2 : Fin 3) * 64 + 64
    omega

/-- The output array after the last point is `outArr` of the heads' and the remainders' arrays. -/
theorem final_arr (c : Dev nD) : (dats m 0 c).arrAt 4 cfg0.N = outArr (V m c main_v1) (V m c main_v4) :=
  (dats m 0 c).arrAt_eq_of_cover 4 (outArr (V m c main_v1) (V m c main_v4)) (fun t _ => flushed_eq m c t) tiles_cover

/-- The output array after the last grid point, at (b, n, ch): the payload of row-tile `n / 1024` of the heads' and the
    remainders' arrays and of batch `b` of both, read at row `n % 1024`, channel `ch`. -/
theorem final_apply (c : Dev nD) (b : Fin 4) (n : Fin 4096) (ch : Fin 64) :
    (dats m 0 c).arrAt 4 cfg0.N (ix3 b n ch)
      = k0_pay1 (qTile (V m c main_v1) b ⟨n.val / 1024, by have := n.isLt; omega⟩) (qTile (V m c main_v4) b ⟨n.val / 1024, by have := n.isLt; omega⟩)
          (kvBatch (V m c main_v1) b) (kvBatch (V m c main_v4) b)
          (ix3 (0 : Fin 1) (⟨n.val % 1024, Nat.mod_lt _ (by decide)⟩ : Fin 1024) ch) := by
  rw [final_arr]
  rfl

end Cert.KernelIdeal.Hand

end
-- ==== Proof.KHost.lean ====
/-
  What the five host operations before the region leave, and what the precondition says of the argument.

  The tokens are the argument reshaped to [4, 4096, 64]. The heads' array is the tokens narrowed to the 16-bit
  format; the remainders' array is the tokens less the heads widened back, narrowed again; the argument itself is not
  written. At the ideal values narrowing and widening are the identity, so the heads are the tokens and each
  remainder is a token less itself. The precondition says every entry of the argument is smaller in absolute value
  than +∞: every entry is a real number.
-/
import proofs.«413013_j73598559584966_3_alg».proof.Proof.KBody
import proofs.«413013_j73598559584966_3_alg».proof.Defs
import proofs.«413013_j73598559584966_3_alg».proof.Proof.Gen.Pre_finite_inputs
import Idealize.ShloMosaic.Lib.StableHlo.Run
import Idealize.ShloMosaic.Lib.ReduceAll
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The tokens: the argument reshaped to [4, 4096, 64]. -/
def tokens (c : Dev nD) : FVec F S4x4096x64 .f32 :=
  shapeCast S4x4096x64 (m ((c.tc : Thread nD τ).loc main_arg0)) shapeCasts_S4x16x16x16x64_S4x4096x64

/-- No host operation before the region writes the argument. -/
theorem V_arg0 (c : Dev nD) : V m c main_arg0 = m ((c.tc : Thread nD τ).loc main_arg0) := by
  show StableHlo.after hostOps0 (V₀ m c) (Proc.devRef .tc main_arg0) = _
  after_results <;> rfl

/-- The heads' array when the region is entered: the tokens narrowed. -/
theorem V_heads (c : Dev nD) :
    (V m c main_v1 : FVec F S4x4096x64 .bf16) = truncf .bf16 (tokens m c) bitsLt_bf16_f32 := by
  show StableHlo.after hostOps0 (V₀ m c) (Proc.devRef .tc main_v1) = _
  after_results <;> rfl

/-- The remainders' array when the region is entered: the tokens less the widened heads, narrowed. -/
theorem V_rems (c : Dev nD) :
    (V m c main_v4 : FVec F S4x4096x64 .bf16)
      = truncf .bf16 (subf (tokens m c) (extf .f32 (truncf .bf16 (tokens m c) bitsLt_bf16_f32) bitsLt_bf16_f32)) bitsLt_bf16_f32 := by
  show StableHlo.after hostOps0 (V₀ m c) (Proc.devRef .tc main_v4) = _
  after_results <;> rfl

end Cert.KernelIdeal.Hand

namespace Cert.KernelIdeal.Hand

open Cert.KernelIdeal Cert.KernelIdeal.Gen
open Idealize.ShloMosaic Idealize.ShloMosaic.TcCoe Idealize.ShloMosaic.ValueIdx

/-- An extended real whose absolute value compares below the pattern of +∞ is a real number. -/
theorem real_of_abs_olt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  have hlt : max x (-x) < ⊤ := by
    unfold Ideal.cmp at hx
    by_contra hn
    simp [hn] at hx
  rw [max_lt_iff] at hlt
  obtain ⟨h1, h2⟩ := hlt
  induction x using EReal.rec with
  | bot => simp at h2
  | top => simp at h1
  | coe r => exact ⟨r, rfl⟩

/-- Under the precondition every entry of the argument is a real number. -/
theorem real_of_pre (m : (ℓ : Loc nD τ sig) → Buf (Elt Ideal) ℓ) (h : Cert.Pre_KernelIdeal (hPre_finite_inputs := Cert.Pre_finite_inputs.Gen.facts) m)
    (c : Dev nD) (i : S4x16x16x16x64.Idx) : ∃ r : ℝ, (m ((c.tc : Thread nD τ).loc main_arg0) i : EReal) = (r : EReal) := by
  haveI : Subsingleton Cert.Pre_finite_inputs.S_.Idx := ⟨fun a b => funext fun d => d.elim0⟩
  -- the conjunction over all entries is one, so each conjunct is
  have h0 := congrFun (h c) ValueIdx.ix0
  dsimp only [Cert.Pre_finite_inputs.fn] at h0
  -- the conjunct at `i`: the entry's absolute value is below +∞
  exact real_of_abs_olt_inf _ (Host.reduce_andi_all _ _ _ _ _ h0 i)

end Cert.KernelIdeal.Hand

end
-- ==== Proof.AttnSpec.lean ====
/-
  Dense self-attention of one batch of tokens, row by row, on the extended reals.

  A row of scores `s : Fin N → EReal` is turned into weights by the shifted exponential: with `m` the largest
  score of the row, the weight of key `k` is `exp (s k - m)`, and the row's normaliser is the sum of the weights.
  Two arrangements of the weighted average of the value rows are stated here:

  * `attnSplit`: every token is carried as a pair (head, remainder); the score of a query against a key is the sum of
    three inner products (head·head, head·remainder, remainder·head), the unnormalised output is the weighted sum of the
    heads plus the weighted sum of the remainders, and the quotient by the normaliser is taken LAST;
  * `attnRef`: one token array; the score is the inner product, each weight is divided by the normaliser FIRST and the
    output is the sum of the normalised weights times the value rows.

  When every token entry is a real number, the head is the token itself and the remainder is zero, the two agree
  (`attnSplit_eq_attnRef`): the two extra inner products vanish, every score is real, so the row maximum is real, every
  weight is a positive real, the normaliser is a positive real, and division by a nonzero real distributes over the
  finite sum.
-/
import Idealize.ShloMosaic.PureOps.Ideal

noncomputable section

namespace Cert.AttnSpec

open Idealize.ShloMosaic

variable {N C : Nat}

/-- The largest entry of a row of scores, from `-∞`. -/
def rowMax (s : Fin N → EReal) : EReal := (Finset.univ : Finset (Fin N)).fold max ⊥ s

/-- The weight of key `k` in a row of scores: the exponential of the score less the row's maximum. -/
def weight (s : Fin N → EReal) (k : Fin N) : EReal := Ideal.exp (s k - rowMax s)

/-- The row's normaliser: the sum of its weights. -/
def norm (s : Fin N → EReal) : EReal := ∑ k : Fin N, weight s k

/-- The score of a query row (head `qh`, remainder `ql`) against key `k` of a key array (heads `kh`, remainders `kl`):
    head·head + head·remainder + remainder·head. -/
def scoreSplit (qh ql : Fin C → EReal) (kh kl : Fin N → Fin C → EReal) (k : Fin N) : EReal :=
  (∑ c : Fin C, qh c * kh k c) + (∑ c : Fin C, qh c * kl k c) + (∑ c : Fin C, ql c * kh k c)

/-- Attention of one query row with split operands, the quotient taken last. -/
def attnSplit (qh ql : Fin C → EReal) (kh kl : Fin N → Fin C → EReal) (c : Fin C) : EReal :=
  Ideal.div ((∑ k : Fin N, weight (scoreSplit qh ql kh kl) k * kh k c) + (∑ k : Fin N, weight (scoreSplit qh ql kh kl) k * kl k c))
    (norm (scoreSplit qh ql kh kl))

/-- The score of query row `i` against key `j` of one token array. -/
def scoreRef (T : Fin N → Fin C → EReal) (i j : Fin N) : EReal := ∑ c : Fin C, T i c * T j c

/-- Attention of query row `i` over one token array, each weight normalised first. -/
def attnRef (T : Fin N → Fin C → EReal) (i : Fin N) (c : Fin C) : EReal :=
  ∑ j : Fin N, Ideal.div (weight (scoreRef T i) j) (norm (scoreRef T i)) * T j c

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest entry of a nonempty row of reals is a real: it is below `+∞` because every entry is, and above
    `-∞` because the first entry is. -/
theorem rowMax_coe [NeZero N] (s : Fin N → ℝ) :
    ∃ m : ℝ, rowMax (fun k => (s k : EReal)) = (m : EReal) := by
  have hlt : rowMax (fun k => (s k : EReal)) < ⊤ := by
    rw [rowMax, Finset.fold_max_lt]
    exact ⟨bot_lt_top, fun x _ => EReal.coe_lt_top _⟩
  have hgt : ⊥ < rowMax (fun k => (s k : EReal)) := by
    rw [rowMax, Finset.lt_fold_max]
    exact Or.inr ⟨0, Finset.mem_univ _, EReal.bot_lt_coe _⟩
  exact ⟨(rowMax (fun k => (s k : EReal))).toReal, (EReal.coe_toReal hlt.ne hgt.ne').symm⟩

/-- A weight of a row of reals whose maximum is the real `m` is the real `exp (s k - m)`. -/
theorem weight_coe (s : Fin N → ℝ) (m : ℝ) (h : rowMax (fun k => (s k : EReal)) = (m : EReal)) (k : Fin N) :
    weight (fun k => (s k : EReal)) k = ((Real.exp (s k - m) : ℝ) : EReal) := by
  rw [weight, h, ← EReal.coe_sub, Ideal.exp_coe]

/-- For real weights `w`, real values `V` and a nonzero real normaliser `L`: the quotient of the weighted sum
    (plus a weighted sum of zeros) by `L` is the sum of the normalised weights times the values. Division by `L` is
    the product with `1/L`, everything is real, and the product distributes over the finite sum. -/
theorem div_last_eq_div_first (w V : Fin N → ℝ) (L : ℝ) (hL : L ≠ 0) :
    Ideal.div ((∑ k : Fin N, (w k : EReal) * (V k : EReal)) + (∑ k : Fin N, (w k : EReal) * 0)) (L : EReal)
      = ∑ j : Fin N, Ideal.div (w j : EReal) (L : EReal) * (V j : EReal) := by
  simp only [Ideal.div_coe hL, mul_zero, Finset.sum_const_zero, add_zero, ← EReal.coe_mul, ← coe_sum]
  congr 1
  rw [Finset.sum_mul]
  exact Finset.sum_congr rfl fun j _ => by ring

/-- For real tokens, head = token and remainder = 0, the split arrangement is the reference arrangement. -/
theorem attnSplit_eq_attnRef [NeZero N] (T : Fin N → Fin C → ℝ) (i : Fin N) (c : Fin C) :
    attnSplit (fun c' => (T i c' : EReal)) (fun _ => 0) (fun k c' => (T k c' : EReal)) (fun _ _ => 0) c
      = attnRef (fun k c' => (T k c' : EReal)) i c := by
  -- the two extra inner products are sums of zeros: the split score is the reference score
  have hscore : scoreSplit (fun c' => (T i c' : EReal)) (fun _ => 0) (fun k c' => (T k c' : EReal)) (fun _ _ => 0)
      = scoreRef (fun k c' => (T k c' : EReal)) i := by
    funext k
    simp [scoreSplit, scoreRef]
  -- every score is a real
  have hreal : scoreRef (fun k c' => (T k c' : EReal)) i
      = fun j => ((∑ c' : Fin C, T i c' * T j c' : ℝ) : EReal) := by
    funext j
    simp only [scoreRef, coe_sum, EReal.coe_mul]
  rw [attnSplit, attnRef, hscore, hreal]
  -- the row maximum is a real, so every weight and the normaliser are reals, the normaliser positive
  obtain ⟨m, hm⟩ := rowMax_coe (fun j => ∑ c' : Fin C, T i c' * T j c')
  have hw := weight_coe (fun j => ∑ c' : Fin C, T i c' * T j c') m hm
  have hn : norm (fun j => ((∑ c' : Fin C, T i c' * T j c' : ℝ) : EReal))
      = ((∑ k : Fin N, Real.exp ((∑ c' : Fin C, T i c' * T k c') - m) : ℝ) : EReal) := by
    rw [norm, coe_sum]
    exact Finset.sum_congr rfl fun k _ => hw k
  simp only [hw, hn]
  exact div_last_eq_div_first _ _ _
    (ne_of_gt (Finset.sum_pos (fun k _ => Real.exp_pos _) Finset.univ_nonempty))

end Cert.AttnSpec

end
-- ==== Proof.KernelPay.lean ====
/-
  The kernel body's one stored value, read at an index (at the ideal values).

  At row `r` and channel `c` of the output block the body stores the attention of the query row (head block row `r`,
  remainder block row `r`) over the whole key/value block pair with the quotient taken last (`Cert.AttnSpec.attnSplit`):
  the contraction over the concatenation [head, head, remainder] · [head, remainder, head] is the sum of the three inner
  products, the lane maximum from `-∞` the row maximum, the lane sum from zero the normaliser, and the contraction with
  the concatenation [head | remainder] followed by the sum of its two halves the two weighted sums.
-/
import proofs.«413013_j73598559584966_3_alg».proof.Proof.Gen.KernelIdeal.Skeleton
import proofs.«413013_j73598559584966_3_alg».proof.Proof.AttnSpec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The two contractions, read at an index

For each contraction: the coordinates of the operand indices at an output index and a contraction index (batch axis 0 from
the output's axis 0, the free axis from the output's axis 1 or 2, the contracted axis from the contraction index), then
the contraction itself as a sum over its one contracted coordinate. -/

theorem lhs_D1_0 (i : S1x1024x4096.Idx) (q : dot_S1x1024x192_S1x4096x192_S1x1024x4096_2_2_1_1_0_0.contr.Idx) :
    (dot_S1x1024x192_S1x4096x192_S1x1024x4096_2_2_1_1_0_0.lhsIdx i q 0).val = (i 0).val := by
  unfold DotDims.lhsIdx
  rw [dif_pos (show (0 : Fin S1x1024x192.rank) ∈ dot_S1x1024x192_S1x4096x192_S1x1024x4096_2_2_1_1_0_0.lhsBatch by decide)]
  rfl
theorem lhs_D1_1 (i : S1x1024x4096.Idx) (q : dot_S1x1024x192_S1x4096x192_S1x1024x4096_2_2_1_1_0_0.contr.Idx) :
    (dot_S1x1024x192_S1x4096x192_S1x1024x4096_2_2_1_1_0_0.lhsIdx i q 1).val = (i 1).val := by
  unfold DotDims.lhsIdx
  rw [dif_neg (show ¬(1 : Fin S1x1024x192.rank) ∈ dot_S1x1024x192_S1x4096x192_S1x1024x4096_2_2_1_1_0_0.lhsBatch by decide), dif_pos (show (1 : Fin S1x1024x192.rank) ∈ dot_S1x1024x192_S1x4096x192_S1x1024x4096_2_2_1_1_0_0.lhsNonContracting by decide)]
  rfl
theorem lhs_D1_2 (i : S1x1024x4096.Idx) (q : dot_S1x1024x192_S1x4096x192_S1x1024x4096_2_2_1_1_0_0.contr.Idx) :
    (dot_S1x1024x192_S1x4096x192_S1x1024x4096_2_2_1_1_0_0.lhsIdx i q 2).val = (q ⟨0, by decide⟩).val :=
  dot_S1x1024x192_S1x4096x192_S1x1024x4096_2_2_1_1_0_0.lhsIdx_val_of_single rfl i q
theorem rhs_D1_0 (i : S1x1024x4096.Idx) (q : dot_S1x1024x192_S1x4096x192_S1x1024x4096_2_2_1_1_0_0.contr.Idx) :
    (dot_S1x1024x192_S1x4096x192_S1x1024x4096_2_2_1_1_0_0.rhsIdx i q 0).val = (i 0).val := by
  unfold DotDims.rhsIdx
  rw [dif_pos (show (0 : Fin S1x4096x192.rank) ∈ dot_S1x1024x192_S1x4096x192_S1x1024x4096_2_2_1_1_0_0.rhsBatch by decide)]
  rfl
theorem rhs_D1_1 (i : S1x1024x4096.Idx) (q : dot_S1x1024x192_S1x4096x192_S1x1024x4096_2_2_1_1_0_0.contr.Idx) :
    (dot_S1x1024x192_S1x4096x192_S1x1024x4096_2_2_1_1_0_0.rhsIdx i q 1).val = (i 2).val := by
  unfold DotDims.rhsIdx
  rw [dif_neg (show ¬(1 : Fin S1x4096x192.rank) ∈ dot_S1x1024x192_S1x4096x192_S1x1024x4096_2_2_1_1_0_0.rhsBatch by decide), dif_pos (show (1 : Fin S1x4096x192.rank) ∈ dot_S1x1024x192_S1x4096x192_S1x1024x4096_2_2_1_1_0_0.rhsNonContracting by decide)]
  rfl
theorem rhs_D1_2 (i : S1x1024x4096.Idx) (q : dot_S1x1024x192_S1x4096x192_S1x1024x4096_2_2_1_1_0_0.contr.Idx) :
    (dot_S1x1024x192_S1x4096x192_S1x1024x4096_2_2_1_1_0_0.rhsIdx i q 2).val = (q ⟨0, by decide⟩).val :=
  dot_S1x1024x192_S1x4096x192_S1x1024x4096_2_2_1_1_0_0.rhsIdx_val_of_single rfl i q

/-- The first contraction into the zero block, read at (0, r, k): the sum over the 192 contracted positions of the
    left operand at (0, r, d) times the right operand at (0, k, d). -/
theorem dot1_apply (L : FVec Ideal S1x1024x192 .bf16) (R : FVec Ideal S1x4096x192 .bf16) (r : Fin 1024) (k : Fin 4096) :
    matmul dot_S1x1024x192_S1x4096x192_S1x1024x4096_2_2_1_1_0_0 none L R (constant S1x1024x4096 .f32 0x00000000#32) (ix3 (0 : Fin 1) r k)
      = ∑ d : Fin 192, L (ix3 (0 : Fin 1) r d) * R (ix3 (0 : Fin 1) k d) := by
  simp only [matmul]
  rw [Ideal.matmul_constant_zero_apply, ← Equiv.sum_comp (ValueIdx.contrEquiv1 dot_S1x1024x192_S1x4096x192_S1x1024x4096_2_2_1_1_0_0 192 rfl rfl).symm]
  refine Finset.sum_congr rfl fun d _ => ?_
  have hd := ValueIdx.contrEquiv1_symm_val dot_S1x1024x192_S1x4096x192_S1x1024x4096_2_2_1_1_0_0 192 rfl rfl d
  have el : dot_S1x1024x192_S1x4096x192_S1x1024x4096_2_2_1_1_0_0.lhsIdx (ix3 (0 : Fin 1) r k) ((ValueIdx.contrEquiv1 dot_S1x1024x192_S1x4096x192_S1x1024x4096_2_2_1_1_0_0 192 rfl rfl).symm d) = ix3 (0 : Fin 1) r d := funext fun a => Fin.ext (by
    match a with
    | ⟨0, _⟩ => exact lhs_D1_0 _ _
    | ⟨1, _⟩ => exact lhs_D1_1 _ _
    | ⟨2, _⟩ => exact (lhs_D1_2 _ _).trans hd)
  have er : dot_S1x1024x192_S1x4096x192_S1x1024x4096_2_2_1_1_0_0.rhsIdx (ix3 (0 : Fin 1) r k) ((ValueIdx.contrEquiv1 dot_S1x1024x192_S1x4096x192_S1x1024x4096_2_2_1_1_0_0 192 rfl rfl).symm d) = ix3 (0 : Fin 1) k d := funext fun a => Fin.ext (by
    match a with
    | ⟨0, _⟩ => exact rhs_D1_0 _ _
    | ⟨1, _⟩ => exact rhs_D1_1 _ _
    | ⟨2, _⟩ => exact (rhs_D1_2 _ _).trans hd)
  rw [el, er]

theorem lhs_D2_0 (i : S1x1024x128.Idx) (q : dot_S1x1024x4096_S1x4096x128_S1x1024x128_2_1_1_2_0_0.contr.Idx) :
    (dot_S1x1024x4096_S1x4096x128_S1x1024x128_2_1_1_2_0_0.lhsIdx i q 0).val = (i 0).val := by
  unfold DotDims.lhsIdx
  rw [dif_pos (show (0 : Fin S1x1024x4096.rank) ∈ dot_S1x1024x4096_S1x4096x128_S1x1024x128_2_1_1_2_0_0.lhsBatch by decide)]
  rfl
theorem lhs_D2_1 (i : S1x1024x128.Idx) (q : dot_S1x1024x4096_S1x4096x128_S1x1024x128_2_1_1_2_0_0.contr.Idx) :
    (dot_S1x1024x4096_S1x4096x128_S1x1024x128_2_1_1_2_0_0.lhsIdx i q 1).val = (i 1).val := by
  unfold DotDims.lhsIdx
  rw [dif_neg (show ¬(1 : Fin S1x1024x4096.rank) ∈ dot_S1x1024x4096_S1x4096x128_S1x1024x128_2_1_1_2_0_0.lhsBatch by decide), dif_pos (show (1 : Fin S1x1024x4096.rank) ∈ dot_S1x1024x4096_S1x4096x128_S1x1024x128_2_1_1_2_0_0.lhsNonContracting by decide)]
  rfl
theorem lhs_D2_2 (i : S1x1024x128.Idx) (q : dot_S1x1024x4096_S1x4096x128_S1x1024x128_2_1_1_2_0_0.contr.Idx) :
    (dot_S1x1024x4096_S1x4096x128_S1x1024x128_2_1_1_2_0_0.lhsIdx i q 2).val = (q ⟨0, by decide⟩).val :=
  dot_S1x1024x4096_S1x4096x128_S1x1024x128_2_1_1_2_0_0.lhsIdx_val_of_single rfl i q
theorem rhs_D2_0 (i : S1x1024x128.Idx) (q : dot_S1x1024x4096_S1x4096x128_S1x1024x128_2_1_1_2_0_0.contr.Idx) :
    (dot_S1x1024x4096_S1x4096x128_S1x1024x128_2_1_1_2_0_0.rhsIdx i q 0).val = (i 0).val := by
  unfold DotDims.rhsIdx
  rw [dif_pos (show (0 : Fin S1x4096x128.rank) ∈ dot_S1x1024x4096_S1x4096x128_S1x1024x128_2_1_1_2_0_0.rhsBatch by decide)]
  rfl
theorem rhs_D2_1 (i : S1x1024x128.Idx) (q : dot_S1x1024x4096_S1x4096x128_S1x1024x128_2_1_1_2_0_0.contr.Idx) :
    (dot_S1x1024x4096_S1x4096x128_S1x1024x128_2_1_1_2_0_0.rhsIdx i q 1).val = (q ⟨0, by decide⟩).val :=
  dot_S1x1024x4096_S1x4096x128_S1x1024x128_2_1_1_2_0_0.rhsIdx_val_of_single rfl i q
theorem rhs_D2_2 (i : S1x1024x128.Idx) (q : dot_S1x1024x4096_S1x4096x128_S1x1024x128_2_1_1_2_0_0.contr.Idx) :
    (dot_S1x1024x4096_S1x4096x128_S1x1024x128_2_1_1_2_0_0.rhsIdx i q 2).val = (i 2).val := by
  unfold DotDims.rhsIdx
  rw [dif_neg (show ¬(2 : Fin S1x4096x128.rank) ∈ dot_S1x1024x4096_S1x4096x128_S1x1024x128_2_1_1_2_0_0.rhsBatch by decide), dif_pos (show (2 : Fin S1x4096x128.rank) ∈ dot_S1x1024x4096_S1x4096x128_S1x1024x128_2_1_1_2_0_0.rhsNonContracting by decide)]
  rfl

/-- The second contraction into the zero block, read at (0, r, d): the sum over the 4096 keys of the left operand at
    (0, r, k) times the right operand at (0, k, d). -/
theorem dot2_apply (L : FVec Ideal S1x1024x4096 .bf16) (R : FVec Ideal S1x4096x128 .bf16) (r : Fin 1024) (d : Fin 128) :
    matmul dot_S1x1024x4096_S1x4096x128_S1x1024x128_2_1_1_2_0_0 none L R (constant S1x1024x128 .f32 0x00000000#32) (ix3 (0 : Fin 1) r d)
      = ∑ k : Fin 4096, L (ix3 (0 : Fin 1) r k) * R (ix3 (0 : Fin 1) k d) := by
  simp only [matmul]
  rw [Ideal.matmul_constant_zero_apply, ← Equiv.sum_comp (ValueIdx.contrEquiv1 dot_S1x1024x4096_S1x4096x128_S1x1024x128_2_1_1_2_0_0 4096 rfl rfl).symm]
  refine Finset.sum_congr rfl fun k _ => ?_
  have hk := ValueIdx.contrEquiv1_symm_val dot_S1x1024x4096_S1x4096x128_S1x1024x128_2_1_1_2_0_0 4096 rfl rfl k
  have el : dot_S1x1024x4096_S1x4096x128_S1x1024x128_2_1_1_2_0_0.lhsIdx (ix3 (0 : Fin 1) r d) ((ValueIdx.contrEquiv1 dot_S1x1024x4096_S1x4096x128_S1x1024x128_2_1_1_2_0_0 4096 rfl rfl).symm k) = ix3 (0 : Fin 1) r k := funext fun a => Fin.ext (by
    match a with
    | ⟨0, _⟩ => exact lhs_D2_0 _ _
    | ⟨1, _⟩ => exact lhs_D2_1 _ _
    | ⟨2, _⟩ => exact (lhs_D2_2 _ _).trans hk)
  have er : dot_S1x1024x4096_S1x4096x128_S1x1024x128_2_1_1_2_0_0.rhsIdx (ix3 (0 : Fin 1) r d) ((ValueIdx.contrEquiv1 dot_S1x1024x4096_S1x4096x128_S1x1024x128_2_1_1_2_0_0 4096 rfl rfl).symm k) = ix3 (0 : Fin 1) k d := funext fun a => Fin.ext (by
    match a with
    | ⟨0, _⟩ => exact rhs_D2_0 _ _
    | ⟨1, _⟩ => exact (rhs_D2_1 _ _).trans hk
    | ⟨2, _⟩ => exact rhs_D2_2 _ _)
  rw [el, er]

/-! ## Concatenations along the channel axis, read at an index -/

section Cat
variable {α : Type} {n : Nat}

/-- Three blocks of 64 channels side by side: channel `c` of the result is channel `c` of the first block, … -/
theorem cat3_apply0 (x y z : (⟨3, ![1, n, 64]⟩ : Shape).Idx → α)
    (h : Shape.Concatenates [(⟨3, ![1, n, 64]⟩ : Shape), ⟨3, ![1, n, 64]⟩, ⟨3, ![1, n, 64]⟩] ⟨3, ![1, n, 192]⟩ 2) (r : Fin n) (c : Fin 64) :
    concatenate (⟨3, ![1, n, 192]⟩ : Shape) 2 [⟨⟨3, ![1, n, 64]⟩, x⟩, ⟨⟨3, ![1, n, 64]⟩, y⟩, ⟨⟨3, ![1, n, 64]⟩, z⟩] h (ix3 (0 : Fin 1) r (⟨c.val, by omega⟩ : Fin 192))
      = x (ix3 (0 : Fin 1) r c) := by
  refine concatenate_apply_piece (t := ⟨3, ![1, n, 192]⟩) 2 [⟨⟨3, ![1, n, 64]⟩, x⟩, ⟨⟨3, ![1, n, 64]⟩, y⟩, ⟨⟨3, ![1, n, 64]⟩, z⟩] h _ 0 (by simp) ⟨3, ![1, n, 64]⟩ x rfl rfl 0 rfl (ix3 (0 : Fin 1) r c) (fun b hb => ?_) ?_
  · match b with
    | ⟨0, _⟩ => rfl
    | ⟨1, _⟩ => rfl
    | ⟨2, _⟩ => exact absurd rfl hb
  · show 0 + c.val = c.val
    omega

/-- … channel `64 + c` is channel `c` of the second block, … -/
theorem cat3_apply1 (x y z : (⟨3, ![1, n, 64]⟩ : Shape).Idx → α)
    (h : Shape.Concatenates [(⟨3, ![1, n, 64]⟩ : Shape), ⟨3, ![1, n, 64]⟩, ⟨3, ![1, n, 64]⟩] ⟨3, ![1, n, 192]⟩ 2) (r : Fin n) (c : Fin 64) :
    concatenate (⟨3, ![1, n, 192]⟩ : Shape) 2 [⟨⟨3, ![1, n, 64]⟩, x⟩, ⟨⟨3, ![1, n, 64]⟩, y⟩, ⟨⟨3, ![1, n, 64]⟩, z⟩] h (ix3 (0 : Fin 1) r (⟨64 + c.val, by omega⟩ : Fin 192))
      = y (ix3 (0 : Fin 1) r c) := by
  refine concatenate_apply_piece (t := ⟨3, ![1, n, 192]⟩) 2 [⟨⟨3, ![1, n, 64]⟩, x⟩, ⟨⟨3, ![1, n, 64]⟩, y⟩, ⟨⟨3, ![1, n, 64]⟩, z⟩] h _ 1 (by simp) ⟨3, ![1, n, 64]⟩ y rfl rfl 64 rfl (ix3 (0 : Fin 1) r c) (fun b hb => ?_) ?_
  · match b with
    | ⟨0, _⟩ => rfl
    | ⟨1, _⟩ => rfl
    | ⟨2, _⟩ => exact absurd rfl hb
  · rfl

/-- … and channel `128 + c` is channel `c` of the third. -/
theorem cat3_apply2 (x y z : (⟨3, ![1, n, 64]⟩ : Shape).Idx → α)
    (h : Shape.Concatenates [(⟨3, ![1, n, 64]⟩ : Shape), ⟨3, ![1, n, 64]⟩, ⟨3, ![1, n, 64]⟩] ⟨3, ![1, n, 192]⟩ 2) (r : Fin n) (c : Fin 64) :
    concatenate (⟨3, ![1, n, 192]⟩ : Shape) 2 [⟨⟨3, ![1, n, 64]⟩, x⟩, ⟨⟨3, ![1, n, 64]⟩, y⟩, ⟨⟨3, ![1, n, 64]⟩, z⟩] h (ix3 (0 : Fin 1) r (⟨128 + c.val, by omega⟩ : Fin 192))
      = z (ix3 (0 : Fin 1) r c) := by
  refine concatenate_apply_piece (t := ⟨3, ![1, n, 192]⟩) 2 [⟨⟨3, ![1, n, 64]⟩, x⟩, ⟨⟨3, ![1, n, 64]⟩, y⟩, ⟨⟨3, ![1, n, 64]⟩, z⟩] h _ 2 (by simp) ⟨3, ![1, n, 64]⟩ z rfl rfl 128 rfl (ix3 (0 : Fin 1) r c) (fun b hb => ?_) ?_
  · match b with
    | ⟨0, _⟩ => rfl
    | ⟨1, _⟩ => rfl
    | ⟨2, _⟩ => exact absurd rfl hb
  · rfl

/-- Two blocks of 64 channels side by side: channel `c` of the result is channel `c` of the first block … -/
theorem cat2_apply0 (x y : (⟨3, ![1, n, 64]⟩ : Shape).Idx → α)
    (h : Shape.Concatenates [(⟨3, ![1, n, 64]⟩ : Shape), ⟨3, ![1, n, 64]⟩] ⟨3, ![1, n, 128]⟩ 2) (r : Fin n) (c : Fin 64) :
    concatenate (⟨3, ![1, n, 128]⟩ : Shape) 2 [⟨⟨3, ![1, n, 64]⟩, x⟩, ⟨⟨3, ![1, n, 64]⟩, y⟩] h (ix3 (0 : Fin 1) r (⟨c.val, by omega⟩ : Fin 128))
      = x (ix3 (0 : Fin 1) r c) := by
  refine concatenate_apply_piece (t := ⟨3, ![1, n, 128]⟩) 2 [⟨⟨3, ![1, n, 64]⟩, x⟩, ⟨⟨3, ![1, n, 64]⟩, y⟩] h _ 0 (by simp) ⟨3, ![1, n, 64]⟩ x rfl rfl 0 rfl (ix3 (0 : Fin 1) r c) (fun b hb => ?_) ?_
  · match b with
    | ⟨0, _⟩ => rfl
    | ⟨1, _⟩ => rfl
    | ⟨2, _⟩ => exact absurd rfl hb
  · show 0 + c.val = c.val
    omega

/-- … and channel `64 + c` is channel `c` of the second. -/
theorem cat2_apply1 (x y : (⟨3, ![1, n, 64]⟩ : Shape).Idx → α)
    (h : Shape.Concatenates [(⟨3, ![1, n, 64]⟩ : Shape), ⟨3, ![1, n, 64]⟩] ⟨3, ![1, n, 128]⟩ 2) (r : Fin n) (c : Fin 64) :
    concatenate (⟨3, ![1, n, 128]⟩ : Shape) 2 [⟨⟨3, ![1, n, 64]⟩, x⟩, ⟨⟨3, ![1, n, 64]⟩, y⟩] h (ix3 (0 : Fin 1) r (⟨64 + c.val, by omega⟩ : Fin 128))
      = y (ix3 (0 : Fin 1) r c) := by
  refine concatenate_apply_piece (t := ⟨3, ![1, n, 128]⟩) 2 [⟨⟨3, ![1, n, 64]⟩, x⟩, ⟨⟨3, ![1, n, 64]⟩, y⟩] h _ 1 (by simp) ⟨3, ![1, n, 64]⟩ y rfl rfl 64 rfl (ix3 (0 : Fin 1) r c) (fun b hb => ?_) ?_
  · match b with
    | ⟨0, _⟩ => rfl
    | ⟨1, _⟩ => rfl
    | ⟨2, _⟩ => exact absurd rfl hb
  · rfl

end Cat

/-- A sum over 192 positions is the sum of its three runs of 64. -/
theorem sum_fin_192 {M : Type*} [AddCommMonoid M] (f : Fin 192 → M) :
    ∑ d : Fin 192, f d
      = (∑ c : Fin 64, f ⟨c.val, by omega⟩) + (∑ c : Fin 64, f ⟨64 + c.val, by omega⟩) + ∑ c : Fin 64, f ⟨128 + c.val, by omega⟩ := by
  have h1 := Fin.sum_univ_add (a := 128) (b := 64) f
  have h2 := Fin.sum_univ_add (a := 64) (b := 64) fun i : Fin (64 + 64) => f (Fin.castAdd 64 i)
  rw [h1, h2]
  rfl

/-! ## The two lane reductions, and a row statistic spread back over the lanes -/

/-- The pattern `0xFF800000` is `-∞`. -/
theorem ofBits_negInf : Ideal.ofBits .f32 0xFF800000#32 = (⊥ : EReal) := by simp [Ideal.ofBits, Ideal.ieee]

/-- The index (0, r) of a [1, 1024] vector with lane `k` inserted is (0, r, k). -/
theorem lift_row (r : Fin 1024) (k : Fin 4096) :
    reduces_S1x1024x4096_S1x1024.lift (ix2 (0 : Fin 1) r) k = ix3 (0 : Fin 1) r k :=
  funext fun a => Fin.ext (by match a with | ⟨0, _⟩ => rfl | ⟨1, _⟩ => rfl | ⟨2, _⟩ => rfl)

/-- The lane maximum from `-∞` of a [1, 1024, 4096] block, at (0, r): the largest entry of row `r`. -/
theorem laneMax_apply (S : FVec Ideal S1x1024x4096 .f32) (r : Fin 1024) :
    multiReduction (F := Ideal) .maximumf [2] S1x1024 S 0xFF800000#32 reduces_S1x1024x4096_S1x1024 (.inl rfl) rfl (ix2 (0 : Fin 1) r)
      = Cert.AttnSpec.rowMax fun k : Fin 4096 => S (ix3 (0 : Fin 1) r k) := by
  refine (Ideal.multiReduction_maximumf_single S _ reduces_S1x1024x4096_S1x1024 _ _ (ix2 (0 : Fin 1) r)).trans ?_
  unfold Cert.AttnSpec.rowMax
  have e : S ∘ reduces_S1x1024x4096_S1x1024.lift (ix2 (0 : Fin 1) r) = fun k : Fin 4096 => S (ix3 (0 : Fin 1) r k) :=
    funext fun k => congrArg S (lift_row r k)
  rw [e]
  show (Finset.univ : Finset (Fin 4096)).fold max (Ideal.ofBits .f32 0xFF800000#32) _ = _
  rw [ofBits_negInf]

/-- The lane sum from zero of a [1, 1024, 4096] block, at (0, r): the sum of row `r`. -/
theorem laneSum_apply (W : FVec Ideal S1x1024x4096 .f32) (r : Fin 1024) :
    multiReduction (F := Ideal) .add [2] S1x1024 W 0x00000000#32 reduces_S1x1024x4096_S1x1024 (.inl rfl) rfl (ix2 (0 : Fin 1) r)
      = ∑ k : Fin 4096, W (ix3 (0 : Fin 1) r k) := by
  refine (Ideal.multiReduction_add_single W _ reduces_S1x1024x4096_S1x1024 _ _ (ix2 (0 : Fin 1) r)).trans ?_
  exact Finset.sum_congr rfl fun k _ => congrArg W (lift_row r k)

/-- A [1, 1024] vector viewed as a [1, 1024, 1] column and spread over `w` lanes reads, at (0, r, c), the vector at (0, r). -/
theorem column_apply {α : Type} {w : Nat} (x : S1x1024.Idx → α) (hc : S1x1024.ShapeCasts S1x1024x1)
    (hb : S1x1024x1.Broadcasts ⟨3, ![1, 1024, w]⟩) (r : Fin 1024) (c : Fin w) :
    broadcastTo (⟨3, ![1, 1024, w]⟩ : Shape) (shapeCast S1x1024x1 x hc) hb (ix3 (0 : Fin 1) r c) = x (ix2 (0 : Fin 1) r) := by
  refine (broadcastTo_apply _ hb _ (ix3 (0 : Fin 1) r (0 : Fin 1)) fun a => ?_).trans ?_
  · match a with
    | ⟨0, _⟩ => show (0 : Nat) = if (1 : Nat) = 1 then 0 else _; rw [if_pos rfl]
    | ⟨1, _⟩ => show r.val = if (1024 : Nat) = 1 then 0 else r.val; rw [if_neg (by decide)]
    | ⟨2, _⟩ => show (0 : Nat) = if (1 : Nat) = 1 then 0 else _; rw [if_pos rfl]
  · refine shapeCast_apply x hc _ (ix2 (0 : Fin 1) r) ?_
    rw [Shape.rowMajor_val_two, Shape.rowMajor_val_three]
    show 0 * 1024 + r.val = (0 * 1024 + r.val) * 1 + 0
    omega

/-! ## The body, stage by stage -/

/-- The score block: the contraction of [head | head | remainder] of the queries with [head | remainder | head] of the
    keys, into the zero block. -/
def scores (qh ql : FVec Ideal S1x1024x64 .bf16) (kh kl : FVec Ideal S1x4096x64 .bf16) : FVec Ideal S1x1024x4096 .f32 :=
  matmul dot_S1x1024x192_S1x4096x192_S1x1024x4096_2_2_1_1_0_0 none
    (concatenate S1x1024x192 2 [⟨S1x1024x64, qh⟩, ⟨S1x1024x64, qh⟩, ⟨S1x1024x64, ql⟩] concatenates_S1x1024x64_S1x1024x64_S1x1024x64_S1x1024x192_d2)
    (concatenate S1x4096x192 2 [⟨S1x4096x64, kh⟩, ⟨S1x4096x64, kl⟩, ⟨S1x4096x64, kh⟩] concatenates_S1x4096x64_S1x4096x64_S1x4096x64_S1x4096x192_d2)
    (constant S1x1024x4096 .f32 0x00000000#32)

/-- The score block at (0, r, k) is the split score of query row `r` against key `k`. -/
theorem scores_apply (qh ql : FVec Ideal S1x1024x64 .bf16) (kh kl : FVec Ideal S1x4096x64 .bf16) (r : Fin 1024) (k : Fin 4096) :
    scores qh ql kh kl (ix3 (0 : Fin 1) r k)
      = Cert.AttnSpec.scoreSplit (fun c' : Fin 64 => qh (ix3 (0 : Fin 1) r c')) (fun c' : Fin 64 => ql (ix3 (0 : Fin 1) r c'))
          (fun (k : Fin 4096) (c' : Fin 64) => kh (ix3 (0 : Fin 1) k c')) (fun (k : Fin 4096) (c' : Fin 64) => kl (ix3 (0 : Fin 1) k c')) k := by
  unfold scores
  refine (dot1_apply _ _ r k).trans ?_
  refine (sum_fin_192 _).trans ?_
  unfold Cert.AttnSpec.scoreSplit
  refine congrArg₂ (· + ·) (congrArg₂ (· + ·) ?_ ?_) ?_
  · exact Finset.sum_congr rfl fun c _ => congrArg₂ (· * ·) (cat3_apply0 qh qh ql _ r c) (cat3_apply0 kh kl kh _ k c)
  · exact Finset.sum_congr rfl fun c _ => congrArg₂ (· * ·) (cat3_apply1 qh qh ql _ r c) (cat3_apply1 kh kl kh _ k c)
  · exact Finset.sum_congr rfl fun c _ => congrArg₂ (· * ·) (cat3_apply2 qh qh ql _ r c) (cat3_apply2 kh kl kh _ k c)

/-- The weight block of a score block: the exponential of each score less its row's lane maximum. -/
def weights (S : FVec Ideal S1x1024x4096 .f32) : FVec Ideal S1x1024x4096 .f32 :=
  exp (subf S (broadcastTo S1x1024x4096
    (shapeCast S1x1024x1 (multiReduction .maximumf [2] S1x1024 S 0xFF800000#32 reduces_S1x1024x4096_S1x1024 (.inl rfl) rfl) shapeCasts_S1x1024_S1x1024x1)
    broadcasts_S1x1024x1_S1x1024x4096))

/-- The weight block at (0, r, k) is the weight of key `k` in row `r` of the scores. -/
theorem weights_apply (S : FVec Ideal S1x1024x4096 .f32) (r : Fin 1024) (k : Fin 4096) :
    weights S (ix3 (0 : Fin 1) r k) = Cert.AttnSpec.weight (fun k : Fin 4096 => S (ix3 (0 : Fin 1) r k)) k := by
  unfold weights Cert.AttnSpec.weight
  show Ideal.exp (S (ix3 (0 : Fin 1) r k) - broadcastTo S1x1024x4096 _ broadcasts_S1x1024x1_S1x1024x4096 (ix3 (0 : Fin 1) r k)) = _
  rw [column_apply, laneMax_apply]

/-- The lane sum of the weight block at (0, r) is the normaliser of row `r` of the scores. -/
theorem norm_apply (S : FVec Ideal S1x1024x4096 .f32) (r : Fin 1024) :
    multiReduction (F := Ideal) .add [2] S1x1024 (weights S) 0x00000000#32 reduces_S1x1024x4096_S1x1024 (.inl rfl) rfl (ix2 (0 : Fin 1) r)
      = Cert.AttnSpec.norm (fun k : Fin 4096 => S (ix3 (0 : Fin 1) r k)) := by
  refine (laneSum_apply _ r).trans ?_
  unfold Cert.AttnSpec.norm
  exact Finset.sum_congr rfl fun k _ => weights_apply S r k

/-- The unnormalised output of a weight block: its contraction with [head | remainder] of the values into the zero
    block, the two halves of 64 channels added. -/
def outs (W : FVec Ideal S1x1024x4096 .f32) (kh kl : FVec Ideal S1x4096x64 .bf16) : FVec Ideal S1x1024x64 .f32 :=
  addf
    (extractStridedSlice S1x1024x64 ![0, 0, 0]
      (matmul dot_S1x1024x4096_S1x4096x128_S1x1024x128_2_1_1_2_0_0 none (truncf .bf16 W bitsLt_bf16_f32)
        (concatenate S1x4096x128 2 [⟨S1x4096x64, kh⟩, ⟨S1x4096x64, kl⟩] concatenates_S1x4096x64_S1x4096x64_S1x4096x128_d2)
        (constant S1x1024x128 .f32 0x00000000#32))
      slices_S1x1024x128_o0_0_0_S1x1024x64)
    (extractStridedSlice S1x1024x64 ![0, 0, 64]
      (matmul dot_S1x1024x4096_S1x4096x128_S1x1024x128_2_1_1_2_0_0 none (truncf .bf16 W bitsLt_bf16_f32)
        (concatenate S1x4096x128 2 [⟨S1x4096x64, kh⟩, ⟨S1x4096x64, kl⟩] concatenates_S1x4096x64_S1x4096x64_S1x4096x128_d2)
        (constant S1x1024x128 .f32 0x00000000#32))
      slices_S1x1024x128_o0_0_64_S1x1024x64)

/-- The unnormalised output at (0, r, c): the weighted sum of the heads plus the weighted sum of the remainders. -/
theorem outs_apply (W : FVec Ideal S1x1024x4096 .f32) (kh kl : FVec Ideal S1x4096x64 .bf16) (r : Fin 1024) (c : Fin 64) :
    outs W kh kl (ix3 (0 : Fin 1) r c)
      = (∑ k : Fin 4096, W (ix3 (0 : Fin 1) r k) * kh (ix3 (0 : Fin 1) k c)) + ∑ k : Fin 4096, W (ix3 (0 : Fin 1) r k) * kl (ix3 (0 : Fin 1) k c) := by
  unfold outs
  refine congrArg₂ (· + ·) ?_ ?_
  · refine (extractStridedSlice_apply ![0, 0, 0] _ slices_S1x1024x128_o0_0_0_S1x1024x64 (ix3 (0 : Fin 1) r c)
      (ix3 (0 : Fin 1) r (⟨c.val, by omega⟩ : Fin 128)) fun a => ?_).trans ?_
    · match a with
      | ⟨0, _⟩ => rfl
      | ⟨1, _⟩ => exact (Nat.zero_add _).symm
      | ⟨2, _⟩ => exact (Nat.zero_add _).symm
    · refine (dot2_apply _ _ r _).trans ?_
      exact Finset.sum_congr rfl fun k _ => congrArg (W (ix3 (0 : Fin 1) r k) * ·) (cat2_apply0 kh kl _ k c)
  · refine (extractStridedSlice_apply ![0, 0, 64] _ slices_S1x1024x128_o0_0_64_S1x1024x64 (ix3 (0 : Fin 1) r c)
      (ix3 (0 : Fin 1) r (⟨64 + c.val, by omega⟩ : Fin 128)) fun a => ?_).trans ?_
    · match a with
      | ⟨0, _⟩ => rfl
      | ⟨1, _⟩ => exact (Nat.zero_add _).symm
      | ⟨2, _⟩ => rfl
    · refine (dot2_apply _ _ r _).trans ?_
      exact Finset.sum_congr rfl fun k _ => congrArg (W (ix3 (0 : Fin 1) r k) * ·) (cat2_apply1 kh kl _ k c)

/-- The stored value over the four blocks as loaded: the unnormalised output divided by the normaliser's column. -/
def pay (qh ql : FVec Ideal S1x1024x64 .bf16) (kh kl : FVec Ideal S1x4096x64 .bf16) : FVec Ideal S1x1024x64 .f32 :=
  divf (outs (weights (scores qh ql kh kl)) kh kl)
    (broadcastTo S1x1024x64
      (shapeCast S1x1024x1
        (multiReduction .add [2] S1x1024 (weights (scores qh ql kh kl)) 0x00000000#32 reduces_S1x1024x4096_S1x1024 (.inl rfl) rfl)
        shapeCasts_S1x1024_S1x1024x1)
      broadcasts_S1x1024x1_S1x1024x64)

/-- The body's stored value is `pay` of the loaded blocks: the four casts to the same shape are the identity. -/
theorem k0_pay1_eq_pay (v0 v2 : Vec Ideal S1x1024x64 .bf16) (v4 v6 : Vec Ideal S1x4096x64 .bf16) :
    k0_pay1 (F := Ideal) v0 v2 v4 v6 = pay v0 v2 v4 v6 := by
  show pay (shapeCast S1x1024x64 v0 shapeCasts_S1x1024x64_S1x1024x64) (shapeCast S1x1024x64 v2 shapeCasts_S1x1024x64_S1x1024x64)
      (shapeCast S1x4096x64 v4 shapeCasts_S1x4096x64_S1x4096x64) (shapeCast S1x4096x64 v6 shapeCasts_S1x4096x64_S1x4096x64) = _
  rw [shapeCast_self, shapeCast_self, shapeCast_self, shapeCast_self]

/-- The stored value at (0, r, c) is `attnSplit` of row `r` of the two query blocks over the two key/value blocks. -/
theorem pay_apply (v0 v2 : Vec Ideal S1x1024x64 .bf16) (v4 v6 : Vec Ideal S1x4096x64 .bf16) (r : Fin 1024) (c : Fin 64) :
    k0_pay1 (F := Ideal) v0 v2 v4 v6 (ix3 (0 : Fin 1) r c)
      = Cert.AttnSpec.attnSplit (fun (c' : Fin 64) => (v0 (ix3 (0 : Fin 1) r c') : EReal)) (fun (c' : Fin 64) => (v2 (ix3 (0 : Fin 1) r c') : EReal))
          (fun (k : Fin 4096) (c' : Fin 64) => (v4 (ix3 (0 : Fin 1) k c') : EReal)) (fun (k : Fin 4096) (c' : Fin 64) => (v6 (ix3 (0 : Fin 1) k c') : EReal)) c := by
  rw [k0_pay1_eq_pay]
  have hS : (fun k : Fin 4096 => scores v0 v2 v4 v6 (ix3 (0 : Fin 1) r k))
      = Cert.AttnSpec.scoreSplit (fun c' : Fin 64 => (v0 (ix3 (0 : Fin 1) r c') : EReal)) (fun c' : Fin 64 => (v2 (ix3 (0 : Fin 1) r c') : EReal))
          (fun (k : Fin 4096) (c' : Fin 64) => (v4 (ix3 (0 : Fin 1) k c') : EReal)) (fun (k : Fin 4096) (c' : Fin 64) => (v6 (ix3 (0 : Fin 1) k c') : EReal)) :=
    funext fun k => scores_apply v0 v2 v4 v6 r k
  unfold pay Cert.AttnSpec.attnSplit
  show Ideal.div (outs (weights (scores v0 v2 v4 v6)) v4 v6 (ix3 (0 : Fin 1) r c))
      (broadcastTo S1x1024x64 _ broadcasts_S1x1024x1_S1x1024x64 (ix3 (0 : Fin 1) r c)) = _
  rw [outs_apply, column_apply, norm_apply, hS]
  refine congrArg (Ideal.div · _) (congrArg₂ (· + ·) ?_ ?_)
  · exact Finset.sum_congr rfl fun k _ => congrArg (· * _) ((weights_apply _ r k).trans (by rw [hS]))
  · exact Finset.sum_congr rfl fun k _ => congrArg (· * _) ((weights_apply _ r k).trans (by rw [hS]))

end Cert.KernelIdeal.Pay

end
-- ==== Proof.RefRead.lean ====
/-
  The reference program read at an index: its result before the closing reshape, at batch `b`, row `n`, channel `c`,
  is the attention of row `n` over batch `b`'s tokens with each weight normalised first (`Cert.AttnSpec.attnRef`):
  the first contraction gives the scores, the reduction from `-∞` joined once more with `-∞` is the row maximum, the
  exponential of the difference the weights, the sum from zero the normaliser, and the second contraction the
  weighted sum of the value rows.
-/
import proofs.«413013_j73598559584966_3_alg».proof.Proof.Gen.ReferenceIdeal.Run
import proofs.«413013_j73598559584966_3_alg».proof.Proof.Gen.ReferenceIdeal.Read
import proofs.«413013_j73598559584966_3_alg».proof.Proof.AttnSpec

noncomputable section

namespace Cert.ReferenceIdeal.RefRead

open Cert.ReferenceIdeal Cert.ReferenceIdeal.Gen Cert.ReferenceIdeal.Read Idealize.ShloMosaic Idealize.ShloMosaic.ValueIdx

/-- The pattern `0xFF800000` is `-∞`. -/
theorem ofBits_negInf : Ideal.ofBits .f32 0xFF800000#32 = (⊥ : EReal) := by simp [Ideal.ofBits, Ideal.ieee]

/-- Batch `b`'s tokens: the argument reshaped to [4, 4096, 64], read at (b, k, c'). -/
abbrev tok (x0 : (⟨S4x16x16x16x64, .f32⟩ : BufTy).Contents (Elt Ideal)) (b : Fin 4) : Fin 4096 → Fin 64 → EReal :=
  fun k c' => (val_main_v0 (F := Ideal) x0 (ix3 b k c') : EReal)

/-- The first contraction at (b, i, j) is the inner product of token rows `i` and `j` of batch `b`. -/
theorem score_apply (x0 : (⟨S4x16x16x16x64, .f32⟩ : BufTy).Contents (Elt Ideal)) (b : Fin 4) (i j : Fin 4096) :
    val_main_v1 (F := Ideal) x0 (ix3 b i j) = Cert.AttnSpec.scoreRef (tok x0 b) i j := by
  rw [val_main_v1_apply]
  unfold Cert.AttnSpec.scoreRef
  refine Finset.sum_congr rfl fun k _ => ?_
  have el : lidx_main_v1 (ix3 b i j) k = ix3 b i k :=
    funext fun a => Fin.ext (by match a with | ⟨0, _⟩ => rfl | ⟨1, _⟩ => rfl | ⟨2, _⟩ => rfl)
  have er : ridx_main_v1 (ix3 b i j) k = ix3 b j k :=
    funext fun a => Fin.ext (by match a with | ⟨0, _⟩ => rfl | ⟨1, _⟩ => rfl | ⟨2, _⟩ => rfl)
  rw [el, er]

/-- The reduction with `max` from `-∞` over the key axis, at (b, i), is the row maximum of row `i`'s scores: the
    source indices over (b, i) are (b, i, k), `k` running over the keys. -/
theorem max_apply (x0 : (⟨S4x16x16x16x64, .f32⟩ : BufTy).Contents (Elt Ideal)) (b : Fin 4) (i : Fin 4096) :
    val_main_v2 (F := Ideal) x0 (ix2 b i) = Cert.AttnSpec.rowMax (Cert.AttnSpec.scoreRef (tok x0 b) i) := by
  have hr : S4x4096x4096.Reduces [2] S4x4096 := by decide
  unfold val_main_v2
  refine (Host.reduce_eq_fold_single (α := Ideal .f32) (FloatOps.maximumf (F := Ideal) (φ := .f32)) (val_main_v1 (F := Ideal) x0)
    (val_main_cst (F := Ideal)) reducesTo_S4x4096x4096_S4x4096_d2 hr h_S_ (ix2 b i)).trans ?_
  unfold Cert.AttnSpec.rowMax
  have hl : ∀ k : Fin 4096, hr.lift (ix2 b i) k = ix3 b i k := fun k =>
    funext fun a => Fin.ext (by match a with | ⟨0, _⟩ => rfl | ⟨1, _⟩ => rfl | ⟨2, _⟩ => rfl)
  have hf : (val_main_v1 (F := Ideal) x0 ∘ hr.lift (ix2 b i)) = Cert.AttnSpec.scoreRef (tok x0 b) i :=
    funext fun k => (congrArg (val_main_v1 (F := Ideal) x0) (hl k)).trans (score_apply x0 b i k)
  rw [hf]
  exact congrArg (fun z => Finset.fold max z (Cert.AttnSpec.scoreRef (tok x0 b) i) (Finset.univ : Finset (Fin 4096))) ofBits_negInf

/-- Joined once more with the broadcast `-∞`, the row maximum is unchanged. -/
theorem rowMax_apply (x0 : (⟨S4x16x16x16x64, .f32⟩ : BufTy).Contents (Elt Ideal)) (b : Fin 4) (i : Fin 4096) :
    val_main_v4 (F := Ideal) x0 (ix2 b i) = Cert.AttnSpec.rowMax (Cert.AttnSpec.scoreRef (tok x0 b) i) := by
  rw [val_main_v4_apply, val_main_v3_apply, val_main_cst_0_apply, max_apply]
  show max (Ideal.ofBits .f32 0xFF800000#32) _ = _
  rw [ofBits_negInf]
  exact max_bot_left _

/-- The exponential of the score less the row maximum broadcast along the keys, at (b, i, j), is key `j`'s weight in row `i`. -/
theorem weight_apply (x0 : (⟨S4x16x16x16x64, .f32⟩ : BufTy).Contents (Elt Ideal)) (b : Fin 4) (i j : Fin 4096) :
    val_main_v8 (F := Ideal) x0 (ix3 b i j) = Cert.AttnSpec.weight (Cert.AttnSpec.scoreRef (tok x0 b) i) j := by
  have e : idx_main_v5 (idx_main_v6 (ix3 b i j)) = ix2 b i :=
    funext fun a => Fin.ext (by match a with | ⟨0, _⟩ => rfl | ⟨1, _⟩ => rfl)
  rw [val_main_v8_apply, val_main_v7_apply, val_main_v6_apply, val_main_v5_apply, score_apply, e, rowMax_apply]
  rfl

/-- The sum from zero over the key axis of the weights, at (b, i), is row `i`'s normaliser. -/
theorem norm_apply (x0 : (⟨S4x16x16x16x64, .f32⟩ : BufTy).Contents (Elt Ideal)) (b : Fin 4) (i : Fin 4096) :
    val_main_v9 (F := Ideal) x0 (ix2 b i) = Cert.AttnSpec.norm (Cert.AttnSpec.scoreRef (tok x0 b) i) := by
  rw [val_main_v9_apply, val_main_cst_1_apply]
  show Ideal.ofBits .f32 0x00000000#32 + _ = _
  rw [Ideal.ofBits_zero_f32, zero_add]
  unfold Cert.AttnSpec.norm
  refine Finset.sum_congr rfl fun k _ => ?_
  rw [← weight_apply]
  exact congrArg _ (funext fun a => Fin.ext (by match a with | ⟨0, _⟩ => rfl | ⟨1, _⟩ => rfl | ⟨2, _⟩ => rfl))

/-- The reference's result before the closing reshape, at (b, n, c), is `attnRef` of batch `b`'s tokens at row `n`,
    channel `c`; the tokens are the argument reshaped to [4, 4096, 64]. -/
theorem ref_apply (x0 : (⟨S4x16x16x16x64, .f32⟩ : BufTy).Contents (Elt Ideal)) (b : Fin 4) (n : Fin 4096) (c : Fin 64) :
    val_main_v13 (F := Ideal) x0 (ix3 b n c)
      = Cert.AttnSpec.attnRef (fun (k : Fin 4096) (c' : Fin 64) => (val_main_v0 (F := Ideal) x0 (ix3 b k c') : EReal)) n c := by
  rw [val_main_v13_apply]
  unfold Cert.AttnSpec.attnRef
  refine Finset.sum_congr rfl fun k _ => ?_
  have el : lidx_main_v13 (ix3 b n c) k = ix3 b n k :=
    funext fun a => Fin.ext (by match a with | ⟨0, _⟩ => rfl | ⟨1, _⟩ => rfl | ⟨2, _⟩ => rfl)
  have er : ridx_main_v13 (ix3 b n c) k = ix3 b k c :=
    funext fun a => Fin.ext (by match a with | ⟨0, _⟩ => rfl | ⟨1, _⟩ => rfl | ⟨2, _⟩ => rfl)
  have en : idx_main_v10 (idx_main_v11 (ix3 b n k)) = ix2 b n :=
    funext fun a => Fin.ext (by match a with | ⟨0, _⟩ => rfl | ⟨1, _⟩ => rfl)
  rw [el, er, val_main_v12_apply, val_main_v11_apply, val_main_v10_apply, en, weight_apply, norm_apply]
  rfl

end Cert.ReferenceIdeal.RefRead

end
-- ==== Proof.KFinal.lean ====
/-
  The kernel's result at the ideal values is the reference's.

  After the last grid point the output array holds at (b, n, ch) the body's payload of the row tile holding row n and
  of batch b (the tiles tile the array); read at the ideal values that payload is attention of the query row (head,
  remainder) over the batch's (heads, remainders) with the quotient taken last. The heads are the tokens (narrowing
  is the identity), the remainders a token less itself, which is zero because the precondition makes every token a
  real number; and for real tokens with zero remainders that arrangement is the reference's, each weight normalised
  first. So the output array is the reference's array before its closing reshape, and both programs close with the
  same reshape.
-/
import proofs.«413013_j73598559584966_3_alg».proof.Proof.KRun
import proofs.«413013_j73598559584966_3_alg».proof.Proof.KValue
import proofs.«413013_j73598559584966_3_alg».proof.Proof.KHost
import proofs.«413013_j73598559584966_3_alg».proof.Proof.KernelPay
import proofs.«413013_j73598559584966_3_alg».proof.Proof.RefRead
import proofs.«413013_j73598559584966_3_alg».proof.Proof.AttnSpec

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-! ## The closing reshape, and the run with its result named -/

/-- The closing reshape leaves in the result's buffer the output array reshaped. -/
theorem tail_res (m : (ℓ : Loc nD τ sig) → Buf (Elt F) ℓ) (c : Dev nD) :
    StableHlo.after hostOps1 (V₂ m c) (Proc.devRef .tc main_v6)
      = shapeCast S4x16x16x16x64 (finalOut m c) shapeCasts_S4x4096x64_S4x16x16x16x64 := by
  have h : StableHlo.after hostOps1 (V₂ m c) (Proc.devRef .tc main_v6)
      = shapeCast S4x16x16x16x64 (V₂ m c (Proc.devRef .tc main_v5)) shapeCasts_S4x4096x64_S4x16x16x16x64 := by
    dsimp only [hostOps1]; after_results; rfl
  rw [h, V₂_out]

/-- Every weakly fair execution of @main terminates, nothing faulting, with the result's buffer at the output array
    reshaped and the argument as launched. -/
theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v6) = shapeCast S4x16x16x16x64 (finalOut m c) shapeCasts_S4x4096x64_S4x16x16x16x64
      ∧ r.2.mem ((c.tc : Thread nD τ).loc main_arg0) = m ((c.tc : Thread nD τ).loc main_arg0)) :=
  (θ_run defs _ _).mono (fun _ h c => ⟨((h c).1).trans (tail_res m c), ((h c).2).trans (V_arg0 m c)⟩) (run_main m ρ)

/-! ## The blocks read at a row -/

/-- Row `n % 1024` of the row tile `n / 1024` of batch `b` is row `n` of batch `b`. -/
theorem qTile_row (x : Vec F S4x4096x64 .bf16) (b : Fin 4) (n : Fin 4096) (c' : Fin 64) :
    qTile x b ⟨n.val / 1024, by have := n.isLt; omega⟩ (ix3 (0 : Fin 1) (⟨n.val % 1024, Nat.mod_lt _ (by decide)⟩ : Fin 1024) c')
      = x (ix3 b n c') := by
  unfold qTile
  exact congrArg x (congrArg₂ (ix3 b) (Fin.ext (by show 1024 * (n.val / 1024) + n.val % 1024 = n.val; omega)) (Fin.ext rfl))

/-- Row `k` of batch `b` as a block is row `k` of batch `b`. -/
theorem kvBatch_row (x : Vec F S4x4096x64 .bf16) (b : Fin 4) (k : Fin 4096) (c' : Fin 64) :
    kvBatch x b (ix3 (0 : Fin 1) k c') = x (ix3 b k c') := by
  unfold kvBatch
  exact congrArg x (congrArg₂ (ix3 b) (Fin.ext rfl) (Fin.ext rfl))

end Cert.KernelIdeal.Hand

namespace Cert.KernelIdeal.Hand

open Cert.KernelIdeal Cert.KernelIdeal.Gen
open Idealize.ShloMosaic Idealize.ShloMosaic.TcCoe Idealize.ShloMosaic.ValueIdx Idealize.SL.Sem

/-! ## At the ideal values -/

variable (m : (ℓ : Loc nD τ sig) → Buf (Elt Ideal) ℓ)

/-- The heads are the tokens: narrowing is the identity. -/
theorem heads_apply (c : Dev nD) (j : S4x4096x64.Idx) : (V m c main_v1 : FVec Ideal S4x4096x64 .bf16) j = tokens m c j := by
  rw [V_heads]; rfl

/-- Each remainder is a token less itself. -/
theorem rems_apply (c : Dev nD) (j : S4x4096x64.Idx) :
    (V m c main_v4 : FVec Ideal S4x4096x64 .bf16) j = tokens m c j - tokens m c j := by
  rw [V_rems]; rfl

/-- The tokens are the reference's first stage of the same argument. -/
theorem tokens_eq (c : Dev nD) :
    tokens m c = Cert.ReferenceIdeal.Read.val_main_v0 (F := Ideal) (m ((c.tc : Thread nD τ).loc main_arg0)) := rfl

/-- Under the precondition every token is a real number. -/
theorem tokens_real (h : Cert.Pre_KernelIdeal (hPre_finite_inputs := Cert.Pre_finite_inputs.Gen.facts) m) (c : Dev nD) (j : S4x4096x64.Idx) :
    ∃ r : ℝ, tokens m c j = (r : EReal) := by
  rw [tokens_eq, Cert.ReferenceIdeal.Read.val_main_v0_apply]
  exact real_of_pre m h c _

/-- Under the precondition the output array after the run is the reference's result before its closing reshape. -/
theorem finalOut_eq (h : Cert.Pre_KernelIdeal (hPre_finite_inputs := Cert.Pre_finite_inputs.Gen.facts) m) (c : Dev nD) :
    (finalOut m c : FVec Ideal S4x4096x64 .f32)
      = Cert.ReferenceIdeal.Read.val_main_v13 (F := Ideal) (m ((c.tc : Thread nD τ).loc main_arg0)) := by
  choose Tr hTr using tokens_real m h c
  funext j
  obtain ⟨b, n, ch, rfl⟩ : ∃ (b : Fin 4) (n : Fin 4096) (ch : Fin 64), j = ix3 b n ch := ⟨j 0, j 1, j 2, eq_ix3 j⟩
  rw [Cert.ReferenceIdeal.RefRead.ref_apply, ← tokens_eq]
  show (dats m 0 c).arrAt 4 cfg0.N (ix3 b n ch) = _
  rw [final_apply, Cert.KernelIdeal.Pay.pay_apply]
  simp only [qTile_row, kvBatch_row, hTr]
  have hz : ∀ r : ℝ, (r : EReal) - (r : EReal) = 0 := fun r => by rw [← EReal.coe_sub, sub_self, EReal.coe_zero]
  have e1 : ∀ (k : Fin 4096) (c' : Fin 64), (V m c main_v1 : FVec Ideal S4x4096x64 .bf16) (ix3 b k c') = ((Tr (ix3 b k c') : ℝ) : EReal) :=
    fun k c' => (heads_apply m c _).trans (hTr _)
  have e4 : ∀ (k : Fin 4096) (c' : Fin 64), (V m c main_v4 : FVec Ideal S4x4096x64 .bf16) (ix3 b k c') = (0 : EReal) :=
    fun k c' => (rems_apply m c _).trans (by rw [hTr, hz])
  refine Eq.trans ?_ (Cert.AttnSpec.attnSplit_eq_attnRef (fun k c' => Tr (ix3 b k c')) n ch)
  exact congr (congr (congr (congr (congrArg Cert.AttnSpec.attnSplit (funext fun c' => e1 n c')) (funext fun c' => e4 n c'))
    (funext fun k => funext fun c' => e1 k c')) (funext fun k => funext fun c' => e4 k c')) rfl

end Cert.KernelIdeal.Hand

end
-- ==== Proof.lean ====
/-
  Dense self-attention with Q = K = V over [4, 4096, 64] tokens: a Pallas kernel that splits every token into a
  16-bit head and a 16-bit remainder against the plain jnp reference, equal over the extended reals.

  The kernel's host prologue makes the heads (the tokens narrowed) and the remainders (the tokens less the widened
  heads, narrowed). Per grid point (batch b, row tile qi) its body contracts [head, head, remainder] of the query tile
  with [head, remainder, head] of the whole batch — the scores as three inner products —, takes each row's maximum,
  exponentiates the differences, sums them, contracts the weights with [head | remainder] of the batch, adds the two
  halves and divides by the sum. The reference contracts the tokens with themselves, takes the shifted exponential,
  divides each weight by the row's sum and contracts with the tokens.

  At the ideal values narrowing and widening are the identity: the head of a token is the token and its remainder is
  the token less itself, which is zero because the precondition makes every input entry a real number. Then the two
  extra inner products and the remainders' weighted sum vanish, every score, row maximum, weight and normaliser is a
  real number, the normaliser is positive, and dividing a finite sum by it is summing the quotients: the two programs
  compute one function of the tokens, row by row, and close with the same reshape.

  The frames: the reference is host operations only (its run drops the result); both kernel programs run five host
  operations, one pipelined region and a closing reshape; the region's five windows stand on three arrays, the heads'
  and the remainders' each read through two windows at half shares, and no part writes the argument.
  `preserves` has no entry to state: the ideal pass rewrote nothing.
-/
import proofs.«413013_j73598559584966_3_alg».proof.Defs
import proofs.«413013_j73598559584966_3_alg».proof.Proof.Gen.Kernel
import proofs.«413013_j73598559584966_3_alg».proof.Proof.Gen.KernelIdeal
import proofs.«413013_j73598559584966_3_alg».proof.Proof.Gen.ReferenceIdeal
import proofs.«413013_j73598559584966_3_alg».proof.Proof.Gen.Pre_finite_inputs
import proofs.«413013_j73598559584966_3_alg».proof.Proof.Gen.ReferenceIdeal.Run
import proofs.«413013_j73598559584966_3_alg».proof.Proof.Gen.ReferenceIdeal.Read
import proofs.«413013_j73598559584966_3_alg».proof.Proof.BRun
import proofs.«413013_j73598559584966_3_alg».proof.Proof.KFinal

noncomputable section

namespace Cert.Proof

open Idealize.ShloMosaic Idealize.SL.Sem

/-- The word-level kernel program runs and leaves its argument as launched. -/
theorem frame_kernel : Cert.frame_Kernel := fun m ρ _ => Cert.Kernel.Hand.frame (F := Bits) m ρ

/-- The idealized kernel program runs and leaves its argument as launched. -/
theorem frame_kernelIdeal : Cert.frame_KernelIdeal := fun m ρ _ => Cert.KernelIdeal.Hand.frame (F := Ideal) m ρ

/-- The reference runs and leaves its argument as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument both programs end with the same result: the kernel's output array is the
    reference's array before the closing reshape (`finalOut_eq`, where the precondition is used), and both reshape it
    alike. -/
theorem algebraic : Cert.algebraic_KernelIdeal_ReferenceIdeal := by
  intro m ρ m' ρ' hpre hagree
  refine ⟨fun c => shapeCast Cert.KernelIdeal.S4x16x16x16x64 (Cert.KernelIdeal.Hand.finalOut m c)
      Cert.KernelIdeal.Gen.shapeCasts_S4x4096x64_S4x16x16x16x64, Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, hagree c]
  exact (congrArg (fun z => shapeCast Cert.KernelIdeal.S4x16x16x16x64 z Cert.KernelIdeal.Gen.shapeCasts_S4x4096x64_S4x16x16x16x64)
    (Cert.KernelIdeal.Hand.finalOut_eq m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
